-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1024 .f32) (main_arg1 : FVec F S8192x1024 .f32) (main_arg2 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 8192#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S2048 : Shape := ⟨1, ![2048]⟩
abbrev S1 : Shape := ⟨1, ![1]⟩
abbrev S1x1 : Shape := ⟨2, ![1, 1]⟩

abbrev nBuf : Space → Nat
  | .hbm => 85
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x1024, .bf16⟩
  | .hbm, ⟨17, _⟩ => ⟨S8192x1024, .bf16⟩
  | .hbm, ⟨18, _⟩ => ⟨S1x8192, .f32⟩
  | .hbm, ⟨19, _⟩ => ⟨S8192x1, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S1, .i32⟩
  | .hbm, ⟨29, _⟩ => ⟨S_, .i32⟩
  | .hbm, ⟨30, _⟩ => ⟨S8192x1, .i32⟩
  | .hbm, ⟨31, _⟩ => ⟨S8192x1, .i1⟩
  | .hbm, ⟨32, _⟩ => ⟨S1x1, .i32⟩
  | .hbm, ⟨33, _⟩ => ⟨S8192x1, .i32⟩
  | .hbm, ⟨34, _⟩ => ⟨S8192x1, .i1⟩
  | .hbm, ⟨35, _⟩ => ⟨S8192x1, .i1⟩
  | .hbm, ⟨36, _⟩ => ⟨S_, .i1⟩
  | .hbm, ⟨37, _⟩ => ⟨S8192, .i1⟩
  | .hbm, ⟨38, _⟩ => ⟨S8192x1024, .f32⟩
  | .hbm, ⟨39, _⟩ => ⟨S8192x1024, .i1⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S8192x1, .i32⟩
  | .hbm, ⟨55, _⟩ => ⟨S1, .i32⟩
  | .hbm, ⟨56, _⟩ => ⟨S_, .i32⟩
  | .hbm, ⟨57, _⟩ => ⟨S8192x1, .i32⟩
  | .hbm, ⟨58, _⟩ => ⟨S8192x1, .i1⟩
  | .hbm, ⟨59, _⟩ => ⟨S1x1, .i32⟩
  | .hbm, ⟨60, _⟩ => ⟨S8192x1, .i32⟩
  | .hbm, ⟨61, _⟩ => ⟨S8192x1, .i1⟩
  | .hbm, ⟨62, _⟩ => ⟨S8192x1, .i1⟩
  | .hbm, ⟨63, _⟩ => ⟨S_, .i1⟩
  | .hbm, ⟨64, _⟩ => ⟨S8192, .i1⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v12 : Ref sig .tc := ⟨.hbm, 42, rfl⟩
abbrev main_v13 : Ref sig .tc := ⟨.hbm, 43, rfl⟩
abbrev main_cst_4 : Ref sig .tc := ⟨.hbm, 44, rfl⟩
abbrev main_v14 : Ref sig .tc := ⟨.hbm, 45, rfl⟩
abbrev main_v15 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v16 : Ref sig .tc := ⟨.hbm, 68, rfl⟩
abbrev main_v17 : Ref sig .tc := ⟨.hbm, 69, rfl⟩
abbrev main_cst_5 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_cst_6 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst_7 : Ref sig .tc := ⟨.hbm, 78, rfl⟩
abbrev main_v24 : Ref sig .tc := ⟨.hbm, 79, rfl⟩
abbrev main_cst_8 : Ref sig .tc := ⟨.hbm, 80, rfl⟩
abbrev main_v25 : Ref sig .tc := ⟨.hbm, 81, rfl⟩
abbrev main_cst_9 : Ref sig .tc := ⟨.hbm, 82, rfl⟩
abbrev main_v26 : Ref sig .tc := ⟨.hbm, 83, rfl⟩
abbrev main_v27 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S8192x1_S_d0_1 : S8192x1.ReducesTo [0, 1] S_
  bitsLt_bf16_f32 : FTy.bits .bf16 < FTy.bits .f32
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  bcast_S_S8192 : S_.BroadcastsInDim S8192 (![] : Fin 0 → Fin S8192.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  shapeCasts_S8192_S8192x1 : S8192.ShapeCasts S8192x1
  dot_S2048x1024_S1024x1024_S2048x1024_1_1_0_0_n_n_wf : DotDims.WF S2048x1024 S1024x1024 S2048x1024 [1] [1] [0] [0] [] []
  gather_S8192x1024_S8192x1_S8192x1024_1_0_n_n_0_1_11024_wf : GatherDims.WF S8192x1024 S8192x1 S8192x1024 [1] [0] [] [0] [] 1 ![1, 1024]
  gather_S8192_S8192x1_S8192_n_0_n_n_0_1_1_wf : GatherDims.WF S8192 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

abbrev win0_0 : Pipeline.Window sig grid0 :=
  Pipeline.Window.ofSpec (Memref.whole main_v8) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S_, .i32⟩
  | .hbm, ⟨48, _⟩ => ⟨S8192x1, .i32⟩
  | .hbm, ⟨49, _⟩ => ⟨S8192x1, .i32⟩
  | .hbm, ⟨50, _⟩ => ⟨S8192x1, .i32⟩
  | .hbm, ⟨51, _⟩ => ⟨S8192x1x1, .i32⟩
  | .hbm, ⟨52, _⟩ => ⟨S1, .i32⟩
  | .hbm, ⟨53, _⟩ => ⟨S_, .i32⟩
  | .hbm, ⟨54, _⟩ => ⟨S8192x1x1, .i32⟩
  | .hbm, ⟨55, _⟩ => ⟨S8192x1x1, .i1⟩
  | .hbm, ⟨56, _⟩ => ⟨S1x1x1, .i32⟩
  | .hbm, ⟨57, _⟩ => ⟨S8192x1x1, .i32⟩
  | .hbm, ⟨58, _⟩ => ⟨S8192x1x1, .i1⟩
  | .hbm, ⟨59, _⟩ => ⟨S8192x1x1, .i1⟩
  | .hbm, ⟨60, _⟩ => ⟨S_, .i1⟩
  | .hbm, ⟨61, _⟩ => ⟨S8192x1, .i1⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v19 : Ref sig .tc := ⟨.hbm, 42, rfl⟩
abbrev main_v20 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_5 : Ref sig .tc := ⟨.hbm, 68, rfl⟩
abbrev main_v24 : Ref sig .tc := ⟨.hbm, 69, rfl⟩
abbrev main_cst_6 : Ref sig .tc := ⟨.hbm, 70, rfl⟩
abbrev main_v25 : Ref sig .tc := ⟨.hbm, 71, rfl⟩
abbrev main_cst_7 : Ref sig .tc := ⟨.hbm, 72, rfl⟩
abbrev main_v26 : Ref sig .tc := ⟨.hbm, 73, rfl⟩
abbrev main_v27 : Ref sig .tc := ⟨.hbm, 74, rfl⟩

abbrev nD : Nat := 1
abbrev τ : Topo := Topo.v7x

variable {F : FTy → Type} [FloatOps F]

class Facts₀ : Prop where
  reducesTo_S8192x1024_S_d0_1 : S8192x1024.ReducesTo [0, 1] S_
  h_S_ : 0 < S_.numel
  reducesTo_S8192x1024_S8192_d1 : S8192x1024.ReducesTo [1] S8192
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x1024_S8192x1024_S8192x8192_1_1_0_0_n_n_wf : DotDims.WF S8192x1024 S8192x1024 S8192x8192 [1] [1] [0] [0] [] []
  gather_S8192x8192_S8192x1x1_S8192x1_n_1_0_0_1_2_11_wf : GatherDims.WF S8192x8192 S8192x1x1 S8192x1 [] [1] [0] [1] [0] 2 ![1, 1]

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.RefFold.lean ====
/-
  The reference's @main, read back: a straight line of seventy-two host operations leaves in its result buffer the
  operations' composed term of the three arguments. The operations are read in five stretches (the logits
  (2 x.w - |x|^2 - |w|^2) / 1024 together with the mean of X's squares; the stable log-softmax along each row; the
  labels as a column; the gather of each row's entry at its label with jnp's index handling; the closing negation,
  mean and regularisation term). Each stretch's result is a named function of the values the stretch reads, proved
  over an arbitrary valuation, so that no single comparison has to open the whole chain at once; the results are then
  chained, and the composed term is the composition of the five named functions.
-/
import proofs.«429192_j76416058131339_3_alg».proof.Proof.RefRunDefs
import proofs.«429192_j76416058131339_3_alg».proof.Proof.LibTypedRead
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo
open Cert.TypedRead

/-! ## Typed reads of a three-operand operation and of a reshape -/

section TypedReads

variable {τ : Topo} {sig : RefSig} {Val : EltTy → Type} {T Tx Ta Tb Tc Ty : BufTy}

/-- A three-operand operation's result at its own typed reference is its function of the three operands' contents. -/
theorem read_ternary (c : TRef sig Tc) (a : TRef sig Ta) (b : TRef sig Tb) (y : TRef sig Ty)
    (f : Tc.Contents Val → Ta.Contents Val → Tb.Contents Val → Ty.Contents Val) (V : Valuation τ sig Val) :
    read y ((no_index (TRef.ternary (τ := τ) c a b y f)).result V) = f (read c V) (read a V) (read b V) := by
  unfold TypedRead.read
  exact (congrArg y.ofBuf (ternary_result c.ref a.ref b.ref y.ref
    (fun w u v => y.toBuf (f (c.ofBuf w) (a.ofBuf u) (b.ofBuf v))) c.dev a.dev b.dev y.dev V)).trans (ofBuf_toBuf y _)

/-- At any other reference it leaves what was there. -/
theorem read_ternary_ne (z : TRef sig T) (c : TRef sig Tc) (a : TRef sig Ta) (b : TRef sig Tb) (y : TRef sig Ty)
    (f : Tc.Contents Val → Ta.Contents Val → Tb.Contents Val → Ty.Contents Val) (V : Valuation τ sig Val)
    (h : z.ref ≠ y.ref) :
    read z ((no_index (TRef.ternary (τ := τ) c a b y f)).result V) = read z V := by
  unfold TypedRead.read
  exact congrArg z.ofBuf (ternary_result_ne (c := c.ref) (a := a.ref) (b := b.ref) (y := y.ref)
    (fun w u v => y.toBuf (f (c.ofBuf w) (a.ofBuf u) (b.ofBuf v))) c.dev a.dev b.dev y.dev V h)

/-- A reshape's result at its own typed reference is the operand's contents in row-major order at the new shape. -/
theorem read_reshape (x : TRef sig Tx) (y : TRef sig Ty) (he : Tx.elt = Ty.elt) (hn : Tx.shape.ShapeCasts Ty.shape)
    (V : Valuation τ sig Val) :
    read y ((no_index (TRef.reshape (τ := τ) (Val := Val) x y he hn)).result V)
      = fun i => he ▸ shapeCast Ty.shape (read x V) hn i := by
  obtain ⟨rx, hx, hx2, hx3⟩ := x
  obtain ⟨ry, hy, hy2, hy3⟩ := y
  subst hx
  subst hy
  unfold TypedRead.read
  exact reshape_result rx ry he hn ⟨hx2, hx3⟩ ⟨hy2, hy3⟩ V

/-- At any other reference it leaves what was there. -/
theorem read_reshape_ne (z : TRef sig T) (x : TRef sig Tx) (y : TRef sig Ty) (he : Tx.elt = Ty.elt)
    (hn : Tx.shape.ShapeCasts Ty.shape) (V : Valuation τ sig Val) (h : z.ref ≠ y.ref) :
    read z ((no_index (TRef.reshape (τ := τ) (Val := Val) x y he hn)).result V) = read z V := by
  unfold TypedRead.read
  exact congrArg z.ofBuf (reshape_result_ne (x := x.ref) (y := y.ref) _ _ x.dev y.dev V h)

/-- The fold over a concatenation is the fold over the second list from the fold over the first. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

end TypedReads

variable {F : FTy → Type} [FloatOps F]

/-! ## The five stretches -/

/-- Operations 1 to 25: the squared row norms, the product X Wᵀ, the logits; and the mean of X's squares. -/
abbrev opsLogits : List (HloOp τ sig (Elt F)) :=
  [ binary main_arg0 main_arg0 main_v0 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v0 main_cst main_v1 ((fun x v => Host.reduceAdd x v reducesTo_S8192x1024_S_d0_1 h_S_) : (⟨S8192x1024, .f32⟩ : BufTy).Contents (Elt F) → (⟨S_, .f32⟩ : BufTy).Contents (Elt F) → (⟨S_, .f32⟩ : BufTy).Contents (Elt F)),
    nullary main_cst_0 (constant S_ .f32 0x4B000000#32),
    binary main_v1 main_cst_0 main_v2 (Host.divf : (⟨S_, .f32⟩ : BufTy).Contents (Elt F) → (⟨S_, .f32⟩ : BufTy).Contents (Elt F) → (⟨S_, .f32⟩ : BufTy).Contents (Elt F)),
    binary main_arg0 main_arg0 main_v3 (mulf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x00000000#32),
    binary main_v3 main_cst_1 main_v4 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v4 main_v5 (broadcastInDim S8192x1 ![0] bcast_S8192_S8192x1_0 : (⟨S8192, .f32⟩ : BufTy).Contents (Elt F) → (⟨S8192x1, .f32⟩ : BufTy).Contents (Elt F)),
    binary main_arg1 main_arg1 main_v6 (mulf : (⟨S8192x1024, .f32⟩ : BufTy).Contents (Elt F) → (⟨S8192x1024, .f32⟩ : BufTy).Contents (Elt F) → (⟨S8192x1024, .f32⟩ : BufTy).Contents (Elt F)),
    nullary main_cst_2 (constant S_ .f32 0x00000000#32),
    binary main_v6 main_cst_2 main_v7 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    binary main_arg0 main_arg1 main_v8 ((fun l r => Host.dotGeneral dot_S8192x1024_S8192x1024_S8192x8192_1_1_0_0_n_n none l r) : (⟨S8192x1024, .f32⟩ : BufTy).Contents (Elt F) → (⟨S8192x1024, .f32⟩ : BufTy).Contents (Elt F) → (⟨S8192x8192, .f32⟩ : BufTy).Contents (Elt F)),
    nullary main_cst_3 (constant S_ .f32 0x40000000#32),
    unary main_cst_3 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    unary main_v5 main_v11 (broadcastInDim S8192x8192 ![0, 1] bcast_S8192x1_S8192x8192_0_1 : (⟨S8192x1, .f32⟩ : BufTy).Contents (Elt F) → (⟨S8192x8192, .f32⟩ : BufTy).Contents (Elt F)),
    binary main_v11 main_v10 main_v12 (subf : (⟨S8192x8192, .f32⟩ : BufTy).Contents (Elt F) → (⟨S8192x8192, .f32⟩ : BufTy).Contents (Elt F) → (⟨S8192x8192, .f32⟩ : BufTy).Contents (Elt F)),
    unary main_v7 main_v13 (broadcastInDim S1x8192 ![1] bcast_S8192_S1x8192_1 : (⟨S8192, .f32⟩ : BufTy).Contents (Elt F) → (⟨S1x8192, .f32⟩ : BufTy).Contents (Elt F)),
    unary main_v13 main_v14 (broadcastInDim S8192x8192 ![0, 1] bcast_S1x8192_S8192x8192_0_1 : (⟨S1x8192, .f32⟩ : BufTy).Contents (Elt F) → (⟨S8192x8192, .f32⟩ : BufTy).Contents (Elt F)),
    binary main_v12 main_v14 main_v15 (addf : (⟨S8192x8192, .f32⟩ : BufTy).Contents (Elt F) → (⟨S8192x8192, .f32⟩ : BufTy).Contents (Elt F) → (⟨S8192x8192, .f32⟩ : BufTy).Contents (Elt F)),
    unary main_v15 main_v16 (Host.negf : (⟨S8192x8192, .f32⟩ : BufTy).Contents (Elt F) → (⟨S8192x8192, .f32⟩ : BufTy).Contents (Elt F)),
    nullary main_cst_4 (constant S_ .f32 0x44800000#32),
    unary main_cst_4 main_v17 (broadcastInDim S8192x8192 ![] bcast_S_S8192x8192 : (⟨S_, .f32⟩ : BufTy).Contents (Elt F) → (⟨S8192x8192, .f32⟩ : BufTy).Contents (Elt F)),
    binary main_v16 main_v17 main_v18 (Host.divf : (⟨S8192x8192, .f32⟩ : BufTy).Contents (Elt F) → (⟨S8192x8192, .f32⟩ : BufTy).Contents (Elt F) → (⟨S8192x8192, .f32⟩ : BufTy).Contents (Elt F)) ]

/-- Operations 26 to 40: the log-softmax of each row of the logits (the row maximum taken off first). -/
abbrev opsLsm : List (HloOp τ sig (Elt F)) :=
  [ TRef.nullary (TRef.of (T := ⟨S_, .f32⟩) main_call0_cst) (constant S_ .f32 0xFF800000#32),
    TRef.binary (TRef.of (T := ⟨S8192x8192, .f32⟩) main_v18) (TRef.of (T := ⟨S_, .f32⟩) main_call0_cst) (TRef.of (T := ⟨S8192, .f32⟩) main_call0_v0) (fun x v => Host.reduce FloatOps.maximumf x v reducesTo_S8192x8192_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x8192, .f32⟩) main_call0_v4) (broadcastInDim S8192x8192 ![0, 1] bcast_S8192x1_S8192x8192_0_1),
    TRef.binary (TRef.of (T := ⟨S8192x8192, .f32⟩) main_v18) (TRef.of (T := ⟨S8192x8192, .f32⟩) main_call0_v4) (TRef.of (T := ⟨S8192x8192, .f32⟩) main_call0_v5) subf,
    TRef.unary (TRef.of (T := ⟨S8192x8192, .f32⟩) main_call0_v5) (TRef.of (T := ⟨S8192x8192, .f32⟩) main_call0_v6) Host.exp,
    TRef.nullary (TRef.of (T := ⟨S_, .f32⟩) main_call0_cst_1) (constant S_ .f32 0x00000000#32),
    TRef.binary (TRef.of (T := ⟨S8192x8192, .f32⟩) main_call0_v6) (TRef.of (T := ⟨S_, .f32⟩) main_call0_cst_1) (TRef.of (T := ⟨S8192, .f32⟩) main_call0_v7) (fun x v => Host.reduceAdd x v reducesTo_S8192x8192_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x8192, .f32⟩) main_call0_v10) (broadcastInDim S8192x8192 ![0, 1] bcast_S8192x1_S8192x8192_0_1),
    TRef.binary (TRef.of (T := ⟨S8192x8192, .f32⟩) main_call0_v5) (TRef.of (T := ⟨S8192x8192, .f32⟩) main_call0_v10) (TRef.of (T := ⟨S8192x8192, .f32⟩) main_v19) subf ]

/-- Operation 41: the labels as a column. -/
abbrev opsIdx : List (HloOp τ sig (Elt F)) :=
  [ unary main_arg2 main_v20 (broadcastInDim S8192x1 ![0] bcast_S8192_S8192x1_0 : (⟨S8192, .i32⟩ : BufTy).Contents (Elt F) → (⟨S8192x1, .i32⟩ : BufTy).Contents (Elt F)) ]

/-- Operations 42 to 63: each row's entry at its label (a negative label counted from the end; a label still out of
    range reads as not-a-number). -/
abbrev opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v20) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v20) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v20) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_),
    TRef.binary (TRef.of (T := ⟨S8192x8192, .f32⟩) main_v19) (TRef.of (T := ⟨S8192x1x1, .i32⟩) main_call1_v5) (TRef.of (T := ⟨S8192x1, .f32⟩) main_call1_v13) (fun x i => Host.gather gather_S8192x8192_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v21) select ]

/-- Operations 64 to 72: the negated mean of the gathered entries plus the regularisation term. -/
abbrev opsClose : List (HloOp τ sig (Elt F)) :=
  [ reshape main_v21 main_v22 rfl shapeCasts_S8192x1_S8192,
    unary main_v22 main_v23 (Host.negf : (⟨S8192, .f32⟩ : BufTy).Contents (Elt F) → (⟨S8192, .f32⟩ : BufTy).Contents (Elt F)),
    nullary main_cst_5 (constant S_ .f32 0x00000000#32),
    binary main_v23 main_cst_5 main_v24 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v24 main_cst_6 main_v25 (Host.divf : (⟨S_, .f32⟩ : BufTy).Contents (Elt F) → (⟨S_, .f32⟩ : BufTy).Contents (Elt F) → (⟨S_, .f32⟩ : BufTy).Contents (Elt F)),
    nullary main_cst_7 (constant S_ .f32 0x3DCCCCCD#32),
    binary main_cst_7 main_v2 main_v26 (mulf : (⟨S_, .f32⟩ : BufTy).Contents (Elt F) → (⟨S_, .f32⟩ : BufTy).Contents (Elt F) → (⟨S_, .f32⟩ : BufTy).Contents (Elt F)),
    binary main_v25 main_v26 main_v27 (addf : (⟨S_, .f32⟩ : BufTy).Contents (Elt F) → (⟨S_, .f32⟩ : BufTy).Contents (Elt F) → (⟨S_, .f32⟩ : BufTy).Contents (Elt F)) ]

set_option maxRecDepth 8192 in
/-- @main's operations are the five stretches in order. -/
theorem ops_cut : (ops : List (HloOp τ sig (Elt F))) = opsLogits ++ (opsLsm ++ (opsIdx ++ (opsTake ++ opsClose))) := rfl

/-! ## What each stretch computes, as a function of the values it reads -/

/-- The logits: (2 x.w - |x|^2 - |w|^2) / 1024 as the reference spells them, -((|x|^2 - 2 x.w) + |w|^2) / 1024. -/
def logitsOf (a0 a1 : (⟨S8192x1024, .f32⟩ : BufTy).Contents (Elt F)) : (⟨S8192x8192, .f32⟩ : BufTy).Contents (Elt F) :=
  Host.divf (Host.negf (addf (subf (broadcastInDim S8192x8192 ![0, 1] bcast_S8192x1_S8192x8192_0_1 (broadcastInDim S8192x1 ![0] bcast_S8192_S8192x1_0 (Host.reduceAdd (mulf a0 a0) (constant S_ .f32 0x00000000#32) reducesTo_S8192x1024_S8192_d1 h_S_))) (mulf (broadcastInDim S8192x8192 ![] bcast_S_S8192x8192 (constant S_ .f32 0x40000000#32)) (Host.dotGeneral dot_S8192x1024_S8192x1024_S8192x8192_1_1_0_0_n_n none a0 a1))) (broadcastInDim S8192x8192 ![0, 1] bcast_S1x8192_S8192x8192_0_1 (broadcastInDim S1x8192 ![1] bcast_S8192_S1x8192_1 (Host.reduceAdd (mulf a1 a1) (constant S_ .f32 0x00000000#32) reducesTo_S8192x1024_S8192_d1 h_S_))))) (broadcastInDim S8192x8192 ![] bcast_S_S8192x8192 (constant S_ .f32 0x44800000#32))

/-- The mean of X's squares: the sum over all entries divided by their number. -/
def meanSqOf (a0 : (⟨S8192x1024, .f32⟩ : BufTy).Contents (Elt F)) : (⟨S_, .f32⟩ : BufTy).Contents (Elt F) :=
  Host.divf (Host.reduceAdd (mulf a0 a0) (constant S_ .f32 0x00000000#32) reducesTo_S8192x1024_S_d0_1 h_S_) (constant S_ .f32 0x4B000000#32)

/-- The log-softmax of each row: the entry less the row maximum, less the logarithm of the row's sum of exponentials of
    such differences. -/
def lsmOf (z : (⟨S8192x8192, .f32⟩ : BufTy).Contents (Elt F)) : (⟨S8192x8192, .f32⟩ : BufTy).Contents (Elt F) :=
  subf (subf z (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf z (constant S_ .f32 0xFF800000#32) reducesTo_S8192x8192_S8192_d1 h_S_))))) (broadcastInDim S8192x8192 ![0, 1] bcast_S8192x1_S8192x8192_0_1 (Host.log (broadcastInDim S8192x1 ![0] bcast_S8192_S8192x1_0 (Host.reduceAdd (Host.exp (subf z (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf z (constant S_ .f32 0xFF800000#32) reducesTo_S8192x8192_S8192_d1 h_S_)))))) (constant S_ .f32 0x00000000#32) reducesTo_S8192x8192_S8192_d1 h_S_))))

/-- The labels as a column. -/
def idxOf (a2 : (⟨S8192, .i32⟩ : BufTy).Contents (Elt F)) : (⟨S8192x1, .i32⟩ : BufTy).Contents (Elt F) :=
  broadcastInDim S8192x1 ![0] bcast_S8192_S8192x1_0 a2

/-- Each row's entry at its label: a negative label has the row length added; a label then outside [0, 8191] reads as
    the not-a-number word. -/
def takeOf (l : (⟨S8192x8192, .f32⟩ : BufTy).Contents (Elt F)) (i : (⟨S8192x1, .i32⟩ : BufTy).Contents (Elt F)) : (⟨S8192x1, .f32⟩ : BufTy).Contents (Elt F) :=
  select (Host.reduce IntOp.andi (andi (cmpi .sge (shapeCast S8192x1x1 (select (cmpi .slt i (broadcastInDim S8192x1 ![] bcast_S_S8192x1 (constantI S_ 32 0#32))) (addi i (broadcastInDim S8192x1 ![] bcast_S_S8192x1 (constantI S_ 32 8192#32))) i) shapeCasts_S8192x1_S8192x1x1) (broadcastInDim S8192x1x1 ![] bcast_S_S8192x1x1 (constantI S_ 32 0#32))) (cmpi .sle (shapeCast S8192x1x1 (select (cmpi .slt i (broadcastInDim S8192x1 ![] bcast_S_S8192x1 (constantI S_ 32 0#32))) (addi i (broadcastInDim S8192x1 ![] bcast_S_S8192x1 (constantI S_ 32 8192#32))) i) shapeCasts_S8192x1_S8192x1x1) (broadcastInDim S8192x1x1 ![0, 1, 2] bcast_S1x1x1_S8192x1x1_0_1_2 (broadcastInDim S1x1x1 ![2] bcast_S1_S1x1x1_2 (constantI S1 32 8191#32))))) (constantI S_ 1 1#1) reducesTo_S8192x1x1_S8192x1_d2 h_S_) (Host.gather gather_S8192x8192_S8192x1x1_S8192x1_n_1_0_0_1_2_11 l (shapeCast S8192x1x1 (select (cmpi .slt i (broadcastInDim S8192x1 ![] bcast_S_S8192x1 (constantI S_ 32 0#32))) (addi i (broadcastInDim S8192x1 ![] bcast_S_S8192x1 (constantI S_ 32 8192#32))) i) shapeCasts_S8192x1_S8192x1x1)) (broadcastInDim S8192x1 ![] bcast_S_S8192x1 (constant S_ .f32 0x7FC00000#32))

/-- The loss: the mean of the negated gathered entries plus the weight word times the mean of X's squares. -/
def lossOf (t : (⟨S8192x1, .f32⟩ : BufTy).Contents (Elt F)) (r : (⟨S_, .f32⟩ : BufTy).Contents (Elt F)) : (⟨S_, .f32⟩ : BufTy).Contents (Elt F) :=
  addf (Host.divf (Host.reduceAdd (Host.negf (shapeCast S8192 t shapeCasts_S8192x1_S8192)) (constant S_ .f32 0x00000000#32) reducesTo_S8192_S_d0 h_S_) (constant S_ .f32 0x46000000#32)) (mulf (constant S_ .f32 0x3DCCCCCD#32) r)

/-! ## Each stretch, over an arbitrary valuation -/

/-- The first stretch leaves the logits in `main_v18`, -/
theorem logits_v18 (V : Valuation τ sig (Elt F)) :
    after opsLogits V (Proc.devRef .tc main_v18) = logitsOf (V (Proc.devRef .tc main_arg0)) (V (Proc.devRef .tc main_arg1)) := by
  after_results_simp
  rfl

/-- the mean of X's squares in `main_v2`, -/
theorem logits_v2 (V : Valuation τ sig (Elt F)) :
    after opsLogits V (Proc.devRef .tc main_v2) = meanSqOf (V (Proc.devRef .tc main_arg0)) := by
  after_results_simp
  rfl

/-- and the labels where they were. -/
theorem logits_arg2 (V : Valuation τ sig (Elt F)) :
    after opsLogits V (Proc.devRef .tc main_arg2) = V (Proc.devRef .tc main_arg2) := by
  after_results_simp

/-- The second stretch leaves the rows' log-softmax in `main_v19`, -/
theorem lsm_v19 (V : Valuation τ sig (Elt F)) :
    after opsLsm V (Proc.devRef .tc main_v19) = lsmOf (V (Proc.devRef .tc main_v18)) := by
  show read (TRef.of (T := ⟨S8192x8192, .f32⟩) main_v19) (after opsLsm V) = lsmOf (read (TRef.of (T := ⟨S8192x8192, .f32⟩) main_v18) V)
  simp (disch := decide) only [after_cons, after_nil, read_nullary, read_unary, read_binary, read_ternary, read_reshape,
    read_nullary_ne, read_unary_ne, read_binary_ne, read_ternary_ne, read_reshape_ne]
  rfl

/-- and the mean of X's squares and the labels where they were. -/
theorem lsm_v2 (V : Valuation τ sig (Elt F)) :
    after opsLsm V (Proc.devRef .tc main_v2) = V (Proc.devRef .tc main_v2) := by
  show read (TRef.of (T := ⟨S_, .f32⟩) main_v2) (after opsLsm V) = read (TRef.of (T := ⟨S_, .f32⟩) main_v2) V
  simp (disch := decide) only [after_cons, after_nil, read_nullary, read_unary, read_binary, read_ternary, read_reshape,
    read_nullary_ne, read_unary_ne, read_binary_ne, read_ternary_ne, read_reshape_ne]
theorem lsm_arg2 (V : Valuation τ sig (Elt F)) :
    after opsLsm V (Proc.devRef .tc main_arg2) = V (Proc.devRef .tc main_arg2) := by
  show read (TRef.of (T := ⟨S8192, .i32⟩) main_arg2) (after opsLsm V) = read (TRef.of (T := ⟨S8192, .i32⟩) main_arg2) V
  simp (disch := decide) only [after_cons, after_nil, read_nullary, read_unary, read_binary, read_ternary, read_reshape,
    read_nullary_ne, read_unary_ne, read_binary_ne, read_ternary_ne, read_reshape_ne]

/-- The third stretch leaves the labels as a column in `main_v20`, -/
theorem idx_v20 (V : Valuation τ sig (Elt F)) :
    after opsIdx V (Proc.devRef .tc main_v20) = idxOf (V (Proc.devRef .tc main_arg2)) := by
  after_results_simp
  rfl

/-- and the log-softmax and the mean of X's squares where they were. -/
theorem idx_v19 (V : Valuation τ sig (Elt F)) :
    after opsIdx V (Proc.devRef .tc main_v19) = V (Proc.devRef .tc main_v19) := by
  after_results_simp
theorem idx_v2 (V : Valuation τ sig (Elt F)) :
    after opsIdx V (Proc.devRef .tc main_v2) = V (Proc.devRef .tc main_v2) := by
  after_results_simp

/-- The fourth stretch leaves each row's entry at its label in `main_v21`, -/
theorem take_v21 (V : Valuation τ sig (Elt F)) :
    after opsTake V (Proc.devRef .tc main_v21) = takeOf (V (Proc.devRef .tc main_v19)) (V (Proc.devRef .tc main_v20)) := by
  show read (TRef.of (T := ⟨S8192x1, .f32⟩) main_v21) (after opsTake V)
    = takeOf (read (TRef.of (T := ⟨S8192x8192, .f32⟩) main_v19) V) (read (TRef.of (T := ⟨S8192x1, .i32⟩) main_v20) V)
  simp (disch := decide) only [after_cons, after_nil, read_nullary, read_unary, read_binary, read_ternary, read_reshape,
    read_nullary_ne, read_unary_ne, read_binary_ne, read_ternary_ne, read_reshape_ne]
  rfl

/-- and the mean of X's squares where it was. -/
theorem take_v2 (V : Valuation τ sig (Elt F)) :
    after opsTake V (Proc.devRef .tc main_v2) = V (Proc.devRef .tc main_v2) := by
  show read (TRef.of (T := ⟨S_, .f32⟩) main_v2) (after opsTake V) = read (TRef.of (T := ⟨S_, .f32⟩) main_v2) V
  simp (disch := decide) only [after_cons, after_nil, read_nullary, read_unary, read_binary, read_ternary, read_reshape,
    read_nullary_ne, read_unary_ne, read_binary_ne, read_ternary_ne, read_reshape_ne]

/-- The last stretch leaves the loss in `main_v27`. -/
theorem close_v27 (V : Valuation τ sig (Elt F)) :
    after opsClose V (Proc.devRef .tc main_v27) = lossOf (V (Proc.devRef .tc main_v21)) (V (Proc.devRef .tc main_v2)) := by
  after_results_simp
  rfl

/-! ## The whole line -/

/-- The composed term is the five named functions composed. -/
theorem res_main_v27_eq (m : (ℓ : Loc nD τ sig) → Buf (Elt F) ℓ) (c : Dev nD) :
    res_main_v27 m c = lossOf (takeOf (lsmOf (logitsOf (m ((c.tc : Thread nD τ).loc main_arg0)) (m ((c.tc : Thread nD τ).loc main_arg1))))
      (idxOf (m ((c.tc : Thread nD τ).loc main_arg2)))) (meanSqOf (m ((c.tc : Thread nD τ).loc main_arg0))) := by
  unfold res_main_v27 lossOf takeOf lsmOf logitsOf idxOf meanSqOf
  rfl

/-- The fold of @main's operations over the launch contents, at the result buffer, is the composed term. -/
theorem res_eq (m : (ℓ : Loc nD τ sig) → Buf (Elt F) ℓ) (c : Dev nD) :
    after ops (launchContents m c) (Proc.devRef .tc main_v27) = res_main_v27 m c := by
  rw [ops_cut, after_app, after_app, after_app, after_app, close_v27, take_v21, take_v2, idx_v19, idx_v20, idx_v2,
    lsm_v19, lsm_arg2, lsm_v2, logits_v18, logits_arg2, logits_v2, res_main_v27_eq]

end Cert.ReferenceIdeal.Value

end
-- ==== Proof.BitsKit.lean ====
/-
  The launch side of the log-sum-exp kernel's frame, at any float instance: what the one pallas_call's region finds in
  the core's buffers after the sixteen host operations before it (the squared row norms of X and W, the mean of X's
  squares, the two format changes and the reshape of W's norms to a row), that @main is those operations, the region,
  and then four stretches of host operations (the two index-normalising gathers by the labels and the closing
  arithmetic), that the later stretches touch only buffers the region leaves alone and write none of its four arrays,
  and the bookkeeping of the region's grid of 4 row tiles by 8 column tiles: the body's two branch conditions
  (first column tile: reset the running maximum and the running sum; last column tile: write the row's log-sum-exp)
  in closed form over the 32 points, and where the output window is idle.
-/
import proofs.«429192_j76416058131339_3_alg».proof.Proof.Gen.Kernel.Launch
import proofs.«429192_j76416058131339_3_alg».proof.Proof.Gen.Kernel.Skeleton
import proofs.«429192_j76416058131339_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the sixteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region, in order. -/
abbrev tailOps : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- @main is the host operations before the region, the region, and the host operations after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- And write none of the region's four arrays: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (reset of the running maximum and sum): the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the row's log-sum-exp written out): the column-tile coordinate is 7, the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column tile it is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S2048x1 .f32 := (Memref.whole cc0_stg3_0 : Memref sig .tc .vmem S2048x1 .f32).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The running maximum and the running sum: whole scoped buffers of the kernel's own, carried between points. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The class's region invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Lse

end
-- ==== Proof.BitsRunFirst.lean ====
/-
  The kernel body run once, symbolically, at a point of the FIRST column tile (at any float instance): the running
  maximum and the running sum are reset (to the finite very negative start value and to zero) before the tile's
  update, so whatever the two scratch buffers held is never used; nothing is stored into the output window, whose
  buffer is handed back as it was found. The pieces the two scratch buffers end with are what the run finds.
-/
import proofs.«429192_j76416058131339_3_alg».proof.Proof.BitsKit

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) :
    Σ' (L3 : List (View.Piece (Elt F) S2048x1 .f32)), Σ' (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Lse

end
-- ==== Proof.BitsRunMiddle.lean ====
/-
  The kernel body run once, symbolically, at a point of a MIDDLE column tile (neither the first nor the last; at any
  float instance): the running maximum and the running sum are read at what the point before left and updated by
  this tile's logits; nothing is stored into the output window, whose buffer is handed back as it was found.
-/
import proofs.«429192_j76416058131339_3_alg».proof.Proof.BitsRunFirst

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) :
    Σ' (L3 : List (View.Piece (Elt F) S2048x1 .f32)), Σ' (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Lse

end
-- ==== Proof.BitsRunLast.lean ====
/-
  The kernel body run once, symbolically, at a point of the LAST column tile (at any float instance): the running
  maximum and the running sum are read at what the point before left and updated by this tile's logits, and the
  row's log-sum-exp, the maximum plus the logarithm of the sum, is stored over the whole output block.
-/
import proofs.«429192_j76416058131339_3_alg».proof.Proof.BitsRunMiddle

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) :
    Σ' (L3 : List (View.Piece (Elt F) S2048x1 .f32)), Σ' (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨?_, ?_, ?_, fun E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Lse

end
-- ==== Proof.BitsFrame.lean ====
/-
  The frame of the log-sum-exp kernel's program, at any float instance. Per control case, what the body's stores leave
  in the running maximum's buffer, the running sum's buffer and (at a last column tile) the output block; point by
  point over the 32 grid points, what those three hold after the body (the first column tile of a row tile starts
  afresh, every other tile updates what the tile before left); the region invariant that carries the two scratch
  buffers from one point to the next; the proof data; the body's obligation at a generic point by case analysis on
  the column-tile coordinate; and the run of @main: it terminates, nothing faults, each of the region's arrays ends at
  what the proof data says and every other buffer at what the later host operations compute.
-/
import proofs.«429192_j76416058131339_3_alg».proof.Proof.BitsRunLast

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces case A leaves in the running maximum's buffer cover it. -/
theorem scover0_A_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) (y : S2048x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S2048x1.size (by sl_kernel_rfl) y
/-- What case A leaves in the running maximum's buffer: its pieces read back. -/
def sout0_A_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- The pieces case A leaves in the running sum's buffer cover it. -/
theorem scover0_A_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) (y : S2048x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x1.size (by sl_kernel_rfl) y
/-- What case A leaves in the running sum's buffer: its pieces read back. -/
def sout0_A_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- The pieces case B leaves in the running maximum's buffer cover it. -/
theorem scover0_B_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S2048x1.size (by sl_kernel_rfl) y
/-- What case B leaves in the running maximum's buffer: its pieces read back. -/
def sout0_B_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- The pieces case B leaves in the running sum's buffer cover it. -/
theorem scover0_B_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S2048x1.size (by sl_kernel_rfl) y
/-- What case B leaves in the running sum's buffer: its pieces read back. -/
def sout0_B_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- The pieces case C leaves in the running maximum's buffer cover it. -/
theorem scover0_C_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S2048x1.size (by sl_kernel_rfl) y
/-- What case C leaves in the running maximum's buffer: its pieces read back. -/
def sout0_C_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
/-- The pieces case C leaves in the running sum's buffer cover it. -/
theorem scover0_C_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S2048x1.size (by sl_kernel_rfl) y
/-- What case C leaves in the running sum's buffer: its pieces read back. -/
def sout0_C_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- The last column tile's store covers the output block. -/
theorem cover0_C_3 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S2048x1.size (by sl_kernel_rfl) y
/-- What the last column tile leaves in the output window's staging buffer. -/
def out0_C_3 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
/-- Away from the last column tile nothing is stored into the output window and it is not written back: a placeholder
    nothing consults. -/
def idleOut : Vec F S2048x1 .f32 := VO0_3.read (Elt F) (VO0_3.writes (Elt F) VO0_3.junk [])

/-! ## What the output block and the two scratch buffers hold after each point -/

/-- After the body at position `n`: the output window's staging buffer, the running maximum, the running sum. The first
    column tile of a row tile (positions ≡ 0 mod 8) starts afresh; the others update what position `n - 1` left. -/
def outsAt0 (c : Dev nD) : (n : ℕ) → n < cfg0.N → Vec F S2048x1 .f32 × Vec F S2048x1 .f32 × Vec F S2048x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (idleOut, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the two scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the output's
    at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the column-tile coordinate says which case the point
    is in; the invariant hands the body the two scratch buffers (at anything before the very first point, else at what
    the point before left) and takes them back at this point's contents; the output window is handed back untouched
    away from the last column tile and with the row's log-sum-exp stored at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 8 = 0
  · by_cases h1 : t.val % 8 = 7
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

set_option backward.isDefEq.respectTransparency.types false in
/-- From any memory with zero counters every weakly fair execution of @main terminates, nothing faulting, and every
    final state has each of the region's four arrays at what the proof data computes and every other unscoped buffer
    as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Lse

end
-- ==== Proof.BitsClose.lean ====
/-
  From the frame run to the frame claim, at any float instance. The frame run leaves every buffer that is none of the
  region's four arrays at what the later host operations compute from the region's exit; none of those operations
  writes an argument of the program, so the three arguments end as they were launched. The same reading names the
  program's result, the scalar loss, as what the later operations compute.
-/
import proofs.«429192_j76416058131339_3_alg».proof.Proof.BitsFrame

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The later host operations write none of the program's arguments, no argument is one of the region's arrays, and the
    operations before the region keep it: `main_arg0` ends as launched. -/
theorem afterTail_main_arg0 (c : Dev nD) : Pipeline.afterTail₀ cfgs (dats m) 0 (V0 m) tailOps c main_arg0 = m ((c : Thread nD τ).loc main_arg0) := by
  unfold Pipeline.afterTail₀
  refine (StableHlo.after_of_forall_not_mem (b := Proc.devRef .tc main_arg0) _ _ (List.forall_iff_forall_mem.mp (by
    simp only [tailOps, hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  refine (Pipeline.withArrays_of_ne spec0 c (V0 m c) _ main_arg0 (fun w => by fin_cases w <;> decide)).trans ?_
  exact V_main_arg0 m c
theorem mem_rest_main_arg0 : main_arg0 ∈ Pipeline.restRefs sig spec0 :=
  Pipeline.mem_restRefs_of main_arg0 rfl (fun w => by fin_cases w <;> decide)
/-- The later host operations write none of the program's arguments, no argument is one of the region's arrays, and the
    operations before the region keep it: `main_arg1` ends as launched. -/
theorem afterTail_main_arg1 (c : Dev nD) : Pipeline.afterTail₀ cfgs (dats m) 0 (V0 m) tailOps c main_arg1 = m ((c : Thread nD τ).loc main_arg1) := by
  unfold Pipeline.afterTail₀
  refine (StableHlo.after_of_forall_not_mem (b := Proc.devRef .tc main_arg1) _ _ (List.forall_iff_forall_mem.mp (by
    simp only [tailOps, hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  refine (Pipeline.withArrays_of_ne spec0 c (V0 m c) _ main_arg1 (fun w => by fin_cases w <;> decide)).trans ?_
  exact V_main_arg1 m c
theorem mem_rest_main_arg1 : main_arg1 ∈ Pipeline.restRefs sig spec0 :=
  Pipeline.mem_restRefs_of main_arg1 rfl (fun w => by fin_cases w <;> decide)
/-- The later host operations write none of the program's arguments, no argument is one of the region's arrays, and the
    operations before the region keep it: `main_arg2` ends as launched. -/
theorem afterTail_main_arg2 (c : Dev nD) : Pipeline.afterTail₀ cfgs (dats m) 0 (V0 m) tailOps c main_arg2 = m ((c : Thread nD τ).loc main_arg2) := by
  unfold Pipeline.afterTail₀
  refine (StableHlo.after_of_forall_not_mem (b := Proc.devRef .tc main_arg2) _ _ (List.forall_iff_forall_mem.mp (by
    simp only [tailOps, hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  refine (Pipeline.withArrays_of_ne spec0 c (V0 m c) _ main_arg2 (fun w => by fin_cases w <;> decide)).trans ?_
  exact V_main_arg2 m c
theorem mem_rest_main_arg2 : main_arg2 ∈ Pipeline.restRefs sig spec0 :=
  Pipeline.mem_restRefs_of main_arg2 rfl (fun w => by fin_cases w <;> decide)
theorem mem_rest_main_v27 : main_v27 ∈ Pipeline.restRefs sig spec0 :=
  Pipeline.mem_restRefs_of main_v27 rfl (fun w => by fin_cases w <;> decide)

/-- The run, read: the result at what the later host operations compute, the three arguments unchanged. -/
theorem run_value : θ_run defs (onTc (τ := τ) (main (F := F))) ⟨m, fun _ => 0, ρ⟩ (fun r => ∀ c : Dev nD,
      r.2.mem ((c.tc : Thread nD τ).loc main_v27) = Pipeline.afterTail₀ cfgs (dats m) 0 (V0 m) tailOps c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v27 mem_rest_main_v27,
      ((h c).2 main_arg0 mem_rest_main_arg0).trans (afterTail_main_arg0 m c),
      ((h c).2 main_arg1 mem_rest_main_arg1).trans (afterTail_main_arg1 m c),
      ((h c).2 main_arg2 mem_rest_main_arg2).trans (afterTail_main_arg2 m c)⟩) (run_main m ρ)

/-- The frame claim's post: @main runs to the end, nothing faults, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Lse

end
-- ==== Proof.IdealKit.lean ====
/-
  The launch side of the log-sum-exp kernel's frame, at any float instance: what the one pallas_call's region finds in
  the core's buffers after the sixteen host operations before it (the squared row norms of X and W, the mean of X's
  squares, the two format changes and the reshape of W's norms to a row), that @main is those operations, the region,
  and then four stretches of host operations (the two index-normalising gathers by the labels and the closing
  arithmetic), that the later stretches touch only buffers the region leaves alone and write none of its four arrays,
  and the bookkeeping of the region's grid of 4 row tiles by 8 column tiles: the body's two branch conditions
  (first column tile: reset the running maximum and the running sum; last column tile: write the row's log-sum-exp)
  in closed form over the 32 points, and where the output window is idle.
-/
import proofs.«429192_j76416058131339_3_alg».proof.Proof.Gen.KernelIdeal.Launch
import proofs.«429192_j76416058131339_3_alg».proof.Proof.Gen.KernelIdeal.Skeleton
import proofs.«429192_j76416058131339_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the sixteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region, in order. -/
abbrev tailOps : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- @main is the host operations before the region, the region, and the host operations after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- And write none of the region's four arrays: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (reset of the running maximum and sum): the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the row's log-sum-exp written out): the column-tile coordinate is 7, the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column tile it is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S2048x1 .f32 := (Memref.whole cc0_stg3_0 : Memref sig .tc .vmem S2048x1 .f32).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The running maximum and the running sum: whole scoped buffers of the kernel's own, carried between points. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The class's region invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Lse

end
-- ==== Proof.IdealRunFirst.lean ====
/-
  The kernel body run once, symbolically, at a point of the FIRST column tile (at any float instance): the running
  maximum and the running sum are reset (to the finite very negative start value and to zero) before the tile's
  update, so whatever the two scratch buffers held is never used; nothing is stored into the output window, whose
  buffer is handed back as it was found. The pieces the two scratch buffers end with are what the run finds.
-/
import proofs.«429192_j76416058131339_3_alg».proof.Proof.IdealKit

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) :
    Σ' (L3 : List (View.Piece (Elt F) S2048x1 .f32)), Σ' (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Lse

end
-- ==== Proof.IdealRunMiddle.lean ====
/-
  The kernel body run once, symbolically, at a point of a MIDDLE column tile (neither the first nor the last; at any
  float instance): the running maximum and the running sum are read at what the point before left and updated by
  this tile's logits; nothing is stored into the output window, whose buffer is handed back as it was found.
-/
import proofs.«429192_j76416058131339_3_alg».proof.Proof.IdealRunFirst

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) :
    Σ' (L3 : List (View.Piece (Elt F) S2048x1 .f32)), Σ' (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Lse

end
-- ==== Proof.IdealRunLast.lean ====
/-
  The kernel body run once, symbolically, at a point of the LAST column tile (at any float instance): the running
  maximum and the running sum are read at what the point before left and updated by this tile's logits, and the
  row's log-sum-exp, the maximum plus the logarithm of the sum, is stored over the whole output block.
-/
import proofs.«429192_j76416058131339_3_alg».proof.Proof.IdealRunMiddle

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) :
    Σ' (L3 : List (View.Piece (Elt F) S2048x1 .f32)), Σ' (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨?_, ?_, ?_, fun E K => ?run⟩
  case run =>
    simp only [cc0__lse_kernel_eq_skeleton]; unfold cc0__lse_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Lse

end
-- ==== Proof.IdealFrame.lean ====
/-
  The frame of the log-sum-exp kernel's program, at any float instance. Per control case, what the body's stores leave
  in the running maximum's buffer, the running sum's buffer and (at a last column tile) the output block; point by
  point over the 32 grid points, what those three hold after the body (the first column tile of a row tile starts
  afresh, every other tile updates what the tile before left); the region invariant that carries the two scratch
  buffers from one point to the next; the proof data; the body's obligation at a generic point by case analysis on
  the column-tile coordinate; and the run of @main: it terminates, nothing faults, each of the region's arrays ends at
  what the proof data says and every other buffer at what the later host operations compute.
-/
import proofs.«429192_j76416058131339_3_alg».proof.Proof.IdealRunLast

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces case A leaves in the running maximum's buffer cover it. -/
theorem scover0_A_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) (y : S2048x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S2048x1.size (by sl_kernel_rfl) y
/-- What case A leaves in the running maximum's buffer: its pieces read back. -/
def sout0_A_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- The pieces case A leaves in the running sum's buffer cover it. -/
theorem scover0_A_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) (y : S2048x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x1.size (by sl_kernel_rfl) y
/-- What case A leaves in the running sum's buffer: its pieces read back. -/
def sout0_A_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- The pieces case B leaves in the running maximum's buffer cover it. -/
theorem scover0_B_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S2048x1.size (by sl_kernel_rfl) y
/-- What case B leaves in the running maximum's buffer: its pieces read back. -/
def sout0_B_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- The pieces case B leaves in the running sum's buffer cover it. -/
theorem scover0_B_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S2048x1.size (by sl_kernel_rfl) y
/-- What case B leaves in the running sum's buffer: its pieces read back. -/
def sout0_B_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- The pieces case C leaves in the running maximum's buffer cover it. -/
theorem scover0_C_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S2048x1.size (by sl_kernel_rfl) y
/-- What case C leaves in the running maximum's buffer: its pieces read back. -/
def sout0_C_0 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
/-- The pieces case C leaves in the running sum's buffer cover it. -/
theorem scover0_C_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S2048x1.size (by sl_kernel_rfl) y
/-- What case C leaves in the running sum's buffer: its pieces read back. -/
def sout0_C_1 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- The last column tile's store covers the output block. -/
theorem cover0_C_3 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S2048x1.size (by sl_kernel_rfl) y
/-- What the last column tile leaves in the output window's staging buffer. -/
def out0_C_3 (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
/-- Away from the last column tile nothing is stored into the output window and it is not written back: a placeholder
    nothing consults. -/
def idleOut : Vec F S2048x1 .f32 := VO0_3.read (Elt F) (VO0_3.writes (Elt F) VO0_3.junk [])

/-! ## What the output block and the two scratch buffers hold after each point -/

/-- After the body at position `n`: the output window's staging buffer, the running maximum, the running sum. The first
    column tile of a row tile (positions ≡ 0 mod 8) starts afresh; the others update what position `n - 1` left. -/
def outsAt0 (c : Dev nD) : (n : ℕ) → n < cfg0.N → Vec F S2048x1 .f32 × Vec F S2048x1 .f32 × Vec F S2048x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (idleOut, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the two scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the output's
    at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the column-tile coordinate says which case the point
    is in; the invariant hands the body the two scratch buffers (at anything before the very first point, else at what
    the point before left) and takes them back at this point's contents; the output window is handed back untouched
    away from the last column tile and with the row's log-sum-exp stored at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 8 = 0
  · by_cases h1 : t.val % 8 = 7
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

set_option backward.isDefEq.respectTransparency.types false in
/-- From any memory with zero counters every weakly fair execution of @main terminates, nothing faulting, and every
    final state has each of the region's four arrays at what the proof data computes and every other unscoped buffer
    as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Lse

end
-- ==== Proof.IdealClose.lean ====
/-
  From the frame run to the frame claim, at any float instance. The frame run leaves every buffer that is none of the
  region's four arrays at what the later host operations compute from the region's exit; none of those operations
  writes an argument of the program, so the three arguments end as they were launched. The same reading names the
  program's result, the scalar loss, as what the later operations compute.
-/
import proofs.«429192_j76416058131339_3_alg».proof.Proof.IdealFrame

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The later host operations write none of the program's arguments, no argument is one of the region's arrays, and the
    operations before the region keep it: `main_arg0` ends as launched. -/
theorem afterTail_main_arg0 (c : Dev nD) : Pipeline.afterTail₀ cfgs (dats m) 0 (V0 m) tailOps c main_arg0 = m ((c : Thread nD τ).loc main_arg0) := by
  unfold Pipeline.afterTail₀
  refine (StableHlo.after_of_forall_not_mem (b := Proc.devRef .tc main_arg0) _ _ (List.forall_iff_forall_mem.mp (by
    simp only [tailOps, hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  refine (Pipeline.withArrays_of_ne spec0 c (V0 m c) _ main_arg0 (fun w => by fin_cases w <;> decide)).trans ?_
  exact V_main_arg0 m c
theorem mem_rest_main_arg0 : main_arg0 ∈ Pipeline.restRefs sig spec0 :=
  Pipeline.mem_restRefs_of main_arg0 rfl (fun w => by fin_cases w <;> decide)
/-- The later host operations write none of the program's arguments, no argument is one of the region's arrays, and the
    operations before the region keep it: `main_arg1` ends as launched. -/
theorem afterTail_main_arg1 (c : Dev nD) : Pipeline.afterTail₀ cfgs (dats m) 0 (V0 m) tailOps c main_arg1 = m ((c : Thread nD τ).loc main_arg1) := by
  unfold Pipeline.afterTail₀
  refine (StableHlo.after_of_forall_not_mem (b := Proc.devRef .tc main_arg1) _ _ (List.forall_iff_forall_mem.mp (by
    simp only [tailOps, hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  refine (Pipeline.withArrays_of_ne spec0 c (V0 m c) _ main_arg1 (fun w => by fin_cases w <;> decide)).trans ?_
  exact V_main_arg1 m c
theorem mem_rest_main_arg1 : main_arg1 ∈ Pipeline.restRefs sig spec0 :=
  Pipeline.mem_restRefs_of main_arg1 rfl (fun w => by fin_cases w <;> decide)
/-- The later host operations write none of the program's arguments, no argument is one of the region's arrays, and the
    operations before the region keep it: `main_arg2` ends as launched. -/
theorem afterTail_main_arg2 (c : Dev nD) : Pipeline.afterTail₀ cfgs (dats m) 0 (V0 m) tailOps c main_arg2 = m ((c : Thread nD τ).loc main_arg2) := by
  unfold Pipeline.afterTail₀
  refine (StableHlo.after_of_forall_not_mem (b := Proc.devRef .tc main_arg2) _ _ (List.forall_iff_forall_mem.mp (by
    simp only [tailOps, hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  refine (Pipeline.withArrays_of_ne spec0 c (V0 m c) _ main_arg2 (fun w => by fin_cases w <;> decide)).trans ?_
  exact V_main_arg2 m c
theorem mem_rest_main_arg2 : main_arg2 ∈ Pipeline.restRefs sig spec0 :=
  Pipeline.mem_restRefs_of main_arg2 rfl (fun w => by fin_cases w <;> decide)
theorem mem_rest_main_v27 : main_v27 ∈ Pipeline.restRefs sig spec0 :=
  Pipeline.mem_restRefs_of main_v27 rfl (fun w => by fin_cases w <;> decide)

/-- The run, read: the result at what the later host operations compute, the three arguments unchanged. -/
theorem run_value : θ_run defs (onTc (τ := τ) (main (F := F))) ⟨m, fun _ => 0, ρ⟩ (fun r => ∀ c : Dev nD,
      r.2.mem ((c.tc : Thread nD τ).loc main_v27) = Pipeline.afterTail₀ cfgs (dats m) 0 (V0 m) tailOps c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v27 mem_rest_main_v27,
      ((h c).2 main_arg0 mem_rest_main_arg0).trans (afterTail_main_arg0 m c),
      ((h c).2 main_arg1 mem_rest_main_arg1).trans (afterTail_main_arg1 m c),
      ((h c).2 main_arg2 mem_rest_main_arg2).trans (afterTail_main_arg2 m c)⟩) (run_main m ρ)

/-- The frame claim's post: @main runs to the end, nothing faults, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Lse

end
-- ==== Proof.IdealPieces.lean ====
/-
  What each control case's stores leave, read back as values, at any float instance. The body's stores are whole-buffer
  stores, so each buffer ends at its last store's payload: the running maximum at the larger of what it held and the
  tile's row maxima, the running sum at the rescaled old sum plus the tile's row sums of exponentials, and, at a last
  column tile, the output block at the maximum plus the logarithm of the sum. At a first column tile the two scratch
  buffers are first reset, so "what it held" is the start value, respectively zero.
-/
import proofs.«429192_j76416058131339_3_alg».proof.Proof.IdealFrame
import Idealize.ShloMosaic.Lib.Pipeline.Value
import Idealize.ShloMosaic.Lib.ValueIdx

set_option maxRecDepth 16384

noncomputable section

namespace Cert.KernelIdeal.Lse

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- A whole-buffer store or load of a rank-two buffer sits at offsets (0, 0): the constant zero function. -/
theorem wholeOffsets_eq_zero : (![0, 0] : Fin 2 → Nat) = fun _ => 0 := funext fun a => by fin_cases a <;> rfl

/-- First column tile, the running maximum: the reset stores the start value, the update reads it back, and the later
    store covers the buffer: the larger of the start value and the tile's row maxima. -/
theorem sout_first_max (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) :
    sout0_A_0 c i arg2 harg2 arg3 harg3 arg4 harg4 arg5 harg5 arg6 harg6 arg7 harg7 hc0 hc1 x0 x1 x2 = k0_pay1 (k0_pay6 x0 x1 x2 (k0_pay3 (F := F))) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) wholeOffsets_eq_zero]
  simp only [View.readAt_eq_ld, harg2.read_unread, harg3.read_unread, harg4.read_unread, View.readCov_unit_zero (S := S2048x1) _ wholeOffsets_eq_zero,
    View.ld_unit_zero (S := S2048x1024) wholeOffsets_eq_zero, View.ld_unit_zero (S := S1024x1024) wholeOffsets_eq_zero, View.ld_unit_zero (S := S1x1024) wholeOffsets_eq_zero,
    View.ld_unit_zero (S := S2048x1) wholeOffsets_eq_zero]
/-- First column tile, the running sum: both buffers are reset first, so the update reads the start value and zero:
    zero rescaled plus the tile's row sums of exponentials taken against the new maximum. -/
theorem sout_first_sum (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x1024 .bf16) (x1 : Vec F S1024x1024 .bf16) (x2 : Vec F S1x1024 .f32) :
    sout0_A_1 c i arg2 harg2 arg3 harg3 arg4 harg4 arg5 harg5 arg6 harg6 arg7 harg7 hc0 hc1 x0 x1 x2 = k0_pay7 x0 x1 x2 (k0_pay3 (F := F)) (k0_pay4 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) wholeOffsets_eq_zero]
  simp only [View.readAt_eq_ld, harg2.read_unread, harg3.read_unread, harg4.read_unread, View.readCov_unit_zero (S := S2048x1) _ wholeOffsets_eq_zero,
    View.ld_unit_zero (S := S2048x1024) wholeOffsets_eq_zero, View.ld_unit_zero (S := S1024x1024) wholeOffsets_eq_zero, View.ld_unit_zero (S := S1x1024) wholeOffsets_eq_zero,
    View.ld_unit_zero (S := S2048x1) wholeOffsets_eq_zero]
/-- A middle column tile, the running maximum: one covering store, whose loads read the whole buffers as they were
    found: the larger of the carried maximum and the tile's row maxima. -/
theorem sout_mid_max (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) :
    sout0_B_0 c i arg2 harg2 arg3 harg3 arg4 harg4 arg5 harg5 arg6 harg6 arg7 harg7 hc0 hc1 x0 x1 x2 xs0 xs1 = k0_pay1 (k0_pay6 x0 x1 x2 xs0) := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero wholeOffsets_eq_zero]
  simp only [View.readAt_eq_ld, harg2.read_unread, harg3.read_unread, harg4.read_unread, harg6.read_unread,
    View.ld_unit_zero (S := S2048x1024) wholeOffsets_eq_zero, View.ld_unit_zero (S := S1024x1024) wholeOffsets_eq_zero, View.ld_unit_zero (S := S1x1024) wholeOffsets_eq_zero,
    View.ld_unit_zero (S := S2048x1) wholeOffsets_eq_zero]
/-- A middle column tile, the running sum: the carried sum rescaled by the exponential of the maximum's decrease,
    plus the tile's row sums of exponentials. -/
theorem sout_mid_sum (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1 .f32) (xs1 : Vec F S2048x1 .f32) :
    sout0_B_1 c i arg2 harg2 arg3 harg3 arg4 harg4 arg5 harg5 arg6 harg6 arg7 harg7 hc0 hc1 x0 x1 x2 xs0 xs1 = k0_pay7 x0 x1 x2 xs0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero wholeOffsets_eq_zero]
  simp only [View.readAt_eq_ld, harg2.read_unread, harg3.read_unread, harg4.read_unread, harg6.read_unread, harg7.read_unread,
    View.ld_unit_zero (S := S2048x1024) wholeOffsets_eq_zero, View.ld_unit_zero (S := S1024x1024) wholeOffsets_eq_zero, View.ld_unit_zero (S := S1x1024) wholeOffsets_eq_zero,
    View.ld_unit_zero (S := S2048x1) wholeOffsets_eq_zero]
/-- The last column tile, the running maximum: as at a middle tile. -/
theorem sout_last_max (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) :
    sout0_C_0 c i arg2 harg2 arg3 harg3 arg4 harg4 arg5 harg5 arg6 harg6 arg7 harg7 hc0 hc1 x0 x1 x2 xs0 xs1 = k0_pay1 (k0_pay6 x0 x1 x2 xs0) := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero wholeOffsets_eq_zero]
  simp only [View.readAt_eq_ld, harg2.read_unread, harg3.read_unread, harg4.read_unread, harg6.read_unread,
    View.ld_unit_zero (S := S2048x1024) wholeOffsets_eq_zero, View.ld_unit_zero (S := S1024x1024) wholeOffsets_eq_zero, View.ld_unit_zero (S := S1x1024) wholeOffsets_eq_zero,
    View.ld_unit_zero (S := S2048x1) wholeOffsets_eq_zero]
/-- The last column tile, the running sum: as at a middle tile. -/
theorem sout_last_sum (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) :
    sout0_C_1 c i arg2 harg2 arg3 harg3 arg4 harg4 arg5 harg5 arg6 harg6 arg7 harg7 hc0 hc1 x0 x1 x2 xs0 xs1 = k0_pay7 x0 x1 x2 xs0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero wholeOffsets_eq_zero]
  simp only [View.readAt_eq_ld, harg2.read_unread, harg3.read_unread, harg4.read_unread, harg6.read_unread, harg7.read_unread,
    View.ld_unit_zero (S := S2048x1024) wholeOffsets_eq_zero, View.ld_unit_zero (S := S1024x1024) wholeOffsets_eq_zero, View.ld_unit_zero (S := S1x1024) wholeOffsets_eq_zero,
    View.ld_unit_zero (S := S2048x1) wholeOffsets_eq_zero]
/-- The last column tile, the output block: its store's two loads read back this same point's stores of the new
    maximum and the new sum, so it holds the new maximum plus the logarithm of the new sum. -/
theorem out_last (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1 .f32) (xs1 : Vec F S2048x1 .f32) :
    out0_C_3 c i arg2 harg2 arg3 harg3 arg4 harg4 arg5 harg5 arg6 harg6 arg7 harg7 hc0 hc1 x0 x1 x2 xs0 xs1 = k0_pay2 (k0_pay1 (k0_pay6 x0 x1 x2 xs0)) (k0_pay7 x0 x1 x2 xs0 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero wholeOffsets_eq_zero]
  simp only [View.readAt_eq_ld, harg2.read_unread, harg3.read_unread, harg4.read_unread, harg6.read_unread, harg7.read_unread, View.readCov_unit_zero (S := S2048x1) _ wholeOffsets_eq_zero,
    View.ld_unit_zero (S := S2048x1024) wholeOffsets_eq_zero, View.ld_unit_zero (S := S1024x1024) wholeOffsets_eq_zero, View.ld_unit_zero (S := S1x1024) wholeOffsets_eq_zero,
    View.ld_unit_zero (S := S2048x1) wholeOffsets_eq_zero]

end Cert.KernelIdeal.Lse

end
-- ==== Proof.LseSpec.lean ====
/-
  The mathematics both programs compute, over real matrices. For a batch X of 8192 rows and class weights W of 8192
  rows, each of 1024 features, and a label y r for every row: the logit of row r against class k is minus the mean
  squared distance, -(|x_r|^2 - 2 x_r.w_k + |w_k|^2) / 1024. Cross-entropy is unchanged by a shift that is constant
  along a row, so the term |x_r|^2 / 1024 may be dropped: with z r k = (2 x_r.w_k - |w_k|^2) / 1024 the negative
  log-likelihood of row r is log (sum_k exp (z r k)) - z r (y r). The loss is the mean of these over the rows plus the
  regularisation constant (the f32 number nearest 0.1, kept as its word: both programs carry the same one) times the
  mean of the squares of X's entries.

  Three facts carry the equivalence. A log-sum-exp computed against ANY real reference point m,
  m + log (sum_k exp (z k - m)), is log (sum_k exp (z k)): so neither the running maximum an online computation
  happens to hold nor the row maximum a stable softmax subtracts matters, only that it is a real number. The online
  update of the running sum when the reference point moves from m to m' rescales the part already summed by
  exp (m - m'). And a shift of every logit of a row by the same real c moves the log-sum-exp by c.
-/
import Idealize.ShloMosaic.PureOps.Ideal
import Idealize.ShloMosaic.Lib.ValueIdx

noncomputable section

namespace Cert.LseSpec

open Idealize.ShloMosaic Idealize.ShloMosaic.ValueIdx

/-- The squared norm of row `r` of `A`. -/
def sq (A : Fin 8192 → Fin 1024 → ℝ) (r : Fin 8192) : ℝ := ∑ f, A r f * A r f
/-- The inner product of row `r` of `X` with row `k` of `W`. -/
def dot (X W : Fin 8192 → Fin 1024 → ℝ) (r k : Fin 8192) : ℝ := ∑ f, X r f * W k f
/-- The shifted logit: twice the inner product minus the class's squared norm, over the feature count. -/
def z (X W : Fin 8192 → Fin 1024 → ℝ) (r k : Fin 8192) : ℝ := (2 * dot X W r k - sq W k) * (1 / 1024)
/-- The row's log-sum-exp of the shifted logits. -/
def lse (X W : Fin 8192 → Fin 1024 → ℝ) (r : Fin 8192) : ℝ := Real.log (∑ k, Real.exp (z X W r k))
/-- The row's negative log-likelihood of its label. -/
def nll (X W : Fin 8192 → Fin 1024 → ℝ) (y : Fin 8192 → Fin 8192) (r : Fin 8192) : ℝ := lse X W r - z X W r (y r)
/-- The mean of the squares of `X`'s entries, as the mean over rows of the squared norms over the feature count. -/
def avgSq (X : Fin 8192 → Fin 1024 → ℝ) : ℝ := (∑ r, sq X r) / 8192 / 1024
/-- The loss: the mean negative log-likelihood plus the regularisation word times the mean square. -/
def loss (X W : Fin 8192 → Fin 1024 → ℝ) (y : Fin 8192 → Fin 8192) : EReal :=
  (((∑ r, nll X W y r) / 8192 : ℝ) : EReal) + Ideal.ofBits .f32 0x3DCCCCCD#32 * ((avgSq X : ℝ) : EReal)

/-- The labels as indices, from their 32-bit words, when every word is below the class count. -/
def labels (yv : (⟨1, ![8192]⟩ : Shape).Idx → BitVec 32) (hy : ∀ i, (yv i).toNat < 8192) (r : Fin 8192) : Fin 8192 :=
  ⟨(yv (ix1 r)).toNat, hy _⟩

/-- A log-sum-exp against any real reference point is the log-sum-exp. -/
theorem log_sum_exp_shift {ι : Type} (s : Finset ι) (hs : s.Nonempty) (a : ι → ℝ) (μ : ℝ) :
    μ + Real.log (∑ k ∈ s, Real.exp (a k - μ)) = Real.log (∑ k ∈ s, Real.exp (a k)) := by
  have hpos : 0 < ∑ k ∈ s, Real.exp (a k) := Finset.sum_pos (fun k _ => Real.exp_pos _) hs
  have h : ∑ k ∈ s, Real.exp (a k - μ) = Real.exp (-μ) * ∑ k ∈ s, Real.exp (a k) := by
    rw [Finset.mul_sum]; refine Finset.sum_congr rfl fun k _ => ?_
    rw [← Real.exp_add]; congr 1; ring
  rw [h, Real.log_mul (Real.exp_pos _).ne' hpos.ne', Real.log_exp]; ring

/-- The online update: moving the reference point from `μ` to `μ'` rescales what is already summed. -/
theorem online_step {ι : Type} [DecidableEq ι] (s t : Finset ι) (hst : Disjoint s t) (a : ι → ℝ) (μ μ' : ℝ) :
    Real.exp (μ - μ') * (∑ k ∈ s, Real.exp (a k - μ)) + ∑ k ∈ t, Real.exp (a k - μ')
      = ∑ k ∈ s ∪ t, Real.exp (a k - μ') := by
  rw [Finset.sum_union hst, Finset.mul_sum]; congr 1
  refine Finset.sum_congr rfl fun k _ => ?_
  rw [← Real.exp_add]; congr 1; ring

/-- Shifting every term by the same real moves the log-sum-exp by it. -/
theorem log_sum_exp_sub {ι : Type} (s : Finset ι) (hs : s.Nonempty) (a : ι → ℝ) (c : ℝ) :
    Real.log (∑ k ∈ s, Real.exp (a k - c)) = Real.log (∑ k ∈ s, Real.exp (a k)) - c := by
  have := log_sum_exp_shift s hs a c; linarith

end Cert.LseSpec

end
-- ==== Proof.IdealPayload.lean ====
/-
  The body's arithmetic at an index, over the extended reals, on blocks whose entries are real numbers. With a row
  tile A (2048 rows), a class tile B (1024 rows) and the class tile's squared norms b, the tile's logits are
  zt p q = (2 A_p.B_q - b q) / 1024 (the kernel multiplies by the exact power of two 1/1024); the new running maximum
  is a real number whenever the old one is; the new running sum is exp (old max - new max) times the old sum plus
  the row's sum of exp (zt p q - new max); and the written-out value is max + log sum.
-/
import proofs.«429192_j76416058131339_3_alg».proof.Proof.Gen.KernelIdeal.Skeleton
import proofs.«429192_j76416058131339_3_alg».proof.Proof.LseSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lse

open Cert.KernelIdeal Cert.KernelIdeal.Gen
open Idealize.ShloMosaic Idealize.ShloMosaic.TcCoe Idealize.ShloMosaic.ValueIdx Idealize.SL.Sem
open Idealize.ShloMosaic.Pipeline (Dat)

namespace Payload

/-! ## Extended reals: sums, maxima and the constants' words -/

/-- The cast of a finite sum of real numbers is the sum of the casts. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An extended real strictly between the two infinities is a real number. -/
theorem real_of_bounds {x : EReal} (h1 : ⊥ < x) (h2 : x < ⊤) : x = ((x.toReal : ℝ) : EReal) :=
  (EReal.coe_toReal h2.ne h1.ne').symm

/-- The word of two. -/
theorem two_word : Ideal.ofBits .f32 0x40000000#32 = ((2 : ℝ) : EReal) := by
  simp [Ideal.ofBits, Ideal.ieee, -EReal.coe_mul]; norm_num

/-- The word of 1/1024, a power of two. -/
theorem inv1024_word : Ideal.ofBits .f32 0x3A800000#32 = ((1 / 1024 : ℝ) : EReal) := by
  simp [Ideal.ofBits, Ideal.ieee, -EReal.coe_mul]; norm_num

/-- The word of minus infinity. -/
theorem neg_inf_word : Ideal.ofBits .f32 0xFF800000#32 = ⊥ := by
  simp [Ideal.ofBits, Ideal.ieee]

/-- The start value of the running maximum: the word of a normal number, hence a real number. -/
theorem start_word_real : ∃ ν : ℝ, Ideal.ofBits .f32 0xFF333332#32 = ((ν : ℝ) : EReal) := by
  show ∃ ν : ℝ, Ideal.ieee 8 23 (0xFF333332#32 : BitVec 32) = ((ν : ℝ) : EReal)
  unfold Ideal.ieee
  dsimp only
  rw [if_neg (by decide), if_neg (by decide)]
  exact ⟨_, rfl⟩

/-! ## Shape changes and broadcasts read at an index -/

/-- A column made of a vector, [a] to [a, 1], reads the vector at the row. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the lanes, [a, 1] to [a, b], reads the column at the row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions read at a row -/

/-- The row index with a lane inserted is the pair. -/
theorem lift_row (h : S2048x1024.Reduces [1] S2048) (p : Fin 2048) (k : Fin 1024) :
    h.lift (ix1 p) k = ix2 p k :=
  funext fun a => Fin.ext (by match a with | ⟨0, _⟩ => rfl | ⟨1, _⟩ => rfl)

/-- The lane sum of a block at a row is the sum over the row's lanes. -/
theorem lane_sum_apply (v : FVec Ideal S2048x1024 .f32) (h : S2048x1024.Reduces [1] S2048) (hφ : FKind.Formats .f32)
    (hacc : (0x00000000#32 : BitVec 32) = 0x00000000#32) (p : Fin 2048) :
    multiReduction (F := Ideal) .add [1] S2048 v 0x00000000#32 h hφ hacc (ix1 p) = ∑ k : Fin 1024, v (ix2 p k) :=
  (Ideal.multiReduction_add_single v 0x00000000#32 h hφ hacc (ix1 p)).trans
    (Finset.sum_congr rfl fun k _ => congrArg v (lift_row h p k))

/-- The lane maximum, taken from minus infinity, of a block whose row holds no plus infinity is below plus infinity. -/
theorem lane_max_lt_top (v : FVec Ideal S2048x1024 .f32) (h : S2048x1024.Reduces [1] S2048) (hφ : FKind.Formats .f32)
    (hacc : (0xFF800000#32 : BitVec 32) = 0xFF800000#32) (p : Fin 2048) (hv : ∀ k : Fin 1024, v (ix2 p k) < ⊤) :
    multiReduction (F := Ideal) .maximumf [1] S2048 v 0xFF800000#32 h hφ hacc (ix1 p) < ⊤ := by
  refine lt_of_eq_of_lt (Ideal.multiReduction_maximumf_single v 0xFF800000#32 h hφ hacc (ix1 p)) ?_
  rw [Finset.fold_max_lt]
  refine ⟨?_, fun k _ => ?_⟩
  · show Ideal.ofBits .f32 0xFF800000#32 < ⊤
    rw [neg_inf_word]; exact bot_lt_top
  · show v (h.lift (ix1 p) k) < ⊤
    rw [lift_row h p k]; exact hv k

/-! ## The exponential and the logarithm read at an index -/

/-- The exponential of a block at an index is the exponential of the entry. -/
theorem exp_apply {s : Shape} {φ : FTy} (v : FVec Ideal s φ) (i : s.Idx) : exp v i = Ideal.exp (v i) := rfl
/-- The logarithm of a block at an index is the logarithm of the entry. -/
theorem log_apply {s : Shape} {φ : FTy} (v : FVec Ideal s φ) (i : s.Idx) : log v i = Ideal.log (v i) := rfl

/-! ## The matrix product read at an index -/

/-- The product's first operand is read at the output's row … -/
theorem lhs_dot_0 (i : S2048x1024.Idx) (c : dot_S2048x1024_S1024x1024_S2048x1024_1_1_0_0_n_n.contr.Idx) :
    (dot_S2048x1024_S1024x1024_S2048x1024_1_1_0_0_n_n.lhsIdx i c 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- … and at the contracted feature. -/
theorem lhs_dot_1 (i : S2048x1024.Idx) (c : dot_S2048x1024_S1024x1024_S2048x1024_1_1_0_0_n_n.contr.Idx) :
    (dot_S2048x1024_S1024x1024_S2048x1024_1_1_0_0_n_n.lhsIdx i c 1).val = (c ⟨0, by decide⟩).val :=
  dot_S2048x1024_S1024x1024_S2048x1024_1_1_0_0_n_n.lhsIdx_val_of_single rfl i c
/-- The second operand is read at the output's column, as ITS row … -/
theorem rhs_dot_0 (i : S2048x1024.Idx) (c : dot_S2048x1024_S1024x1024_S2048x1024_1_1_0_0_n_n.contr.Idx) :
    (dot_S2048x1024_S1024x1024_S2048x1024_1_1_0_0_n_n.rhsIdx i c 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- … and at the contracted feature. -/
theorem rhs_dot_1 (i : S2048x1024.Idx) (c : dot_S2048x1024_S1024x1024_S2048x1024_1_1_0_0_n_n.contr.Idx) :
    (dot_S2048x1024_S1024x1024_S2048x1024_1_1_0_0_n_n.rhsIdx i c 1).val = (c ⟨0, by decide⟩).val :=
  dot_S2048x1024_S1024x1024_S2048x1024_1_1_0_0_n_n.rhsIdx_val_of_single rfl i c

/-- The product of a row tile with a class tile, both contracted along their features, into a zero accumulator:
    at (p, q) the inner product of row p of the first with row q of the second. -/
theorem matmul_at (y0 : FVec Ideal S2048x1024 .bf16) (y1 : FVec Ideal S1024x1024 .bf16) (p : Fin 2048) (q : Fin 1024) :
    matmul dot_S2048x1024_S1024x1024_S2048x1024_1_1_0_0_n_n none y0 y1 (constant (F := Ideal) S2048x1024 .f32 0x00000000#32) (ix2 p q)
      = ∑ f : Fin 1024, y0 (ix2 p f) * y1 (ix2 q f) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k := funext fun a => Fin.ext (by
    match a with
    | ⟨0, _⟩ => exact rhs_dot_0 _ _
    | ⟨1, _⟩ => exact (rhs_dot_1 _ _).trans hk)
  rw [el, er]

end Payload

open Payload

/-- A tile's logit of row `p` against class `q`. -/
def zt (A : Fin 2048 → Fin 1024 → ℝ) (B : Fin 1024 → Fin 1024 → ℝ) (b : Fin 1024 → ℝ) (p : Fin 2048) (q : Fin 1024) : ℝ := (2 * ∑ f, A p f * B q f - b q) * (1 / 1024)

/-- The start value of the running maximum is a real number, the same in every row. -/
theorem pay3_real : ∃ ν : ℝ, ∀ p : Fin 2048, k0_pay3 (F := Ideal) (ix2 p (0 : Fin 1)) = ((ν : ℝ) : EReal) := by
  obtain ⟨ν, hν⟩ := start_word_real
  refine ⟨ν, fun p => ?_⟩
  unfold k0_pay3
  rw [shapeCast_self, broadcast_apply]
  exact hν
/-- The start value of the running sum is zero. -/
theorem pay4_zero (p : Fin 2048) : k0_pay4 (F := Ideal) (ix2 p (0 : Fin 1)) = ((0 : ℝ) : EReal) := by
  unfold k0_pay4
  rw [shapeCast_self, broadcast_apply]
  exact Ideal.ofBits_zero_f32
/-- The shape change before the store of the new maximum changes nothing. -/
theorem pay1_self (v : FVec Ideal S2048x1 .f32) : k0_pay1 v = v := by
  unfold k0_pay1
  exact shapeCast_self _ _
theorem pay5_at (x0 : Vec Ideal S2048x1024 .bf16) (x1 : Vec Ideal S1024x1024 .bf16) (x2 : Vec Ideal S1x1024 .f32) (A : Fin 2048 → Fin 1024 → ℝ) (B : Fin 1024 → Fin 1024 → ℝ) (b : Fin 1024 → ℝ)
    (hx0 : ∀ (p : Fin 2048) (f : Fin 1024), x0 (ix2 p f) = ((A p f : ℝ) : EReal)) (hx1 : ∀ (q : Fin 1024) (f : Fin 1024), x1 (ix2 q f) = ((B q f : ℝ) : EReal)) (hx2 : ∀ q : Fin 1024, x2 (ix2 (0 : Fin 1) q) = ((b q : ℝ) : EReal)) (p : Fin 2048) (q : Fin 1024) :
    k0_pay5 x0 x1 x2 (ix2 p q) = ((zt A B b p q : ℝ) : EReal) := by
  unfold k0_pay5
  rw [mulf_apply, subf_apply, mulf_apply, broadcast_apply, broadcast_apply, broadcastTo_1b_ab_apply,
    shapeCast_self, shapeCast_self, shapeCast_self, matmul_at, hx2]
  have hdot : ∑ f : Fin 1024, x0 (ix2 p f) * x1 (ix2 q f) = ((∑ f : Fin 1024, A p f * B q f : ℝ) : EReal) := by
    rw [coe_sum]
    exact Finset.sum_congr rfl fun f _ => by rw [hx0, hx1, EReal.coe_mul]
  rw [hdot]
  show (Ideal.ofBits .f32 0x40000000#32 * ((∑ f : Fin 1024, A p f * B q f : ℝ) : EReal) - ((b q : ℝ) : EReal)) * Ideal.ofBits .f32 0x3A800000#32 = _
  rw [two_word, inv1024_word, ← EReal.coe_mul, ← EReal.coe_sub, ← EReal.coe_mul]
  rfl
theorem pay6_real (x0 : Vec Ideal S2048x1024 .bf16) (x1 : Vec Ideal S1024x1024 .bf16) (x2 : Vec Ideal S1x1024 .f32) (xs0 : Vec Ideal S2048x1 .f32) (A : Fin 2048 → Fin 1024 → ℝ) (B : Fin 1024 → Fin 1024 → ℝ) (b : Fin 1024 → ℝ)
    (hx0 : ∀ (p : Fin 2048) (f : Fin 1024), x0 (ix2 p f) = ((A p f : ℝ) : EReal)) (hx1 : ∀ (q : Fin 1024) (f : Fin 1024), x1 (ix2 q f) = ((B q f : ℝ) : EReal)) (hx2 : ∀ q : Fin 1024, x2 (ix2 (0 : Fin 1) q) = ((b q : ℝ) : EReal)) (μ : Fin 2048 → ℝ) (hμ : ∀ p : Fin 2048, xs0 (ix2 p (0 : Fin 1)) = ((μ p : ℝ) : EReal)) :
    ∃ μ' : Fin 2048 → ℝ, ∀ p : Fin 2048, k0_pay6 x0 x1 x2 xs0 (ix2 p (0 : Fin 1)) = ((μ' p : ℝ) : EReal) := by
  have key : ∀ p : Fin 2048, ⊥ < k0_pay6 x0 x1 x2 xs0 (ix2 p (0 : Fin 1)) ∧ k0_pay6 x0 x1 x2 xs0 (ix2 p (0 : Fin 1)) < ⊤ := by
    intro p
    unfold k0_pay6
    rw [maximumf_apply, shapeCast_a_a1_apply, hμ]
    have hM := lane_max_lt_top (k0_pay5 x0 x1 x2) reduces_S2048x1024_S2048 (.inl rfl) rfl p
      (fun k => by rw [pay5_at x0 x1 x2 A B b hx0 hx1 hx2]; exact EReal.coe_lt_top _)
    exact ⟨lt_max_of_lt_left (EReal.bot_lt_coe _), max_lt (EReal.coe_lt_top _) hM⟩
  exact ⟨fun p => (k0_pay6 x0 x1 x2 xs0 (ix2 p (0 : Fin 1))).toReal, fun p => real_of_bounds (key p).1 (key p).2⟩
theorem pay7_at (x0 : Vec Ideal S2048x1024 .bf16) (x1 : Vec Ideal S1024x1024 .bf16) (x2 : Vec Ideal S1x1024 .f32) (xs0 xs1 : Vec Ideal S2048x1 .f32) (A : Fin 2048 → Fin 1024 → ℝ) (B : Fin 1024 → Fin 1024 → ℝ) (b : Fin 1024 → ℝ)
    (hx0 : ∀ (p : Fin 2048) (f : Fin 1024), x0 (ix2 p f) = ((A p f : ℝ) : EReal)) (hx1 : ∀ (q : Fin 1024) (f : Fin 1024), x1 (ix2 q f) = ((B q f : ℝ) : EReal)) (hx2 : ∀ q : Fin 1024, x2 (ix2 (0 : Fin 1) q) = ((b q : ℝ) : EReal)) (μ μ' lam : Fin 2048 → ℝ) (hμ : ∀ p : Fin 2048, xs0 (ix2 p (0 : Fin 1)) = ((μ p : ℝ) : EReal))
    (hμ' : ∀ p : Fin 2048, k0_pay6 x0 x1 x2 xs0 (ix2 p (0 : Fin 1)) = ((μ' p : ℝ) : EReal))
    (hl : ∀ p : Fin 2048, xs1 (ix2 p (0 : Fin 1)) = ((lam p : ℝ) : EReal)) (p : Fin 2048) :
    k0_pay7 x0 x1 x2 xs0 xs1 (ix2 p (0 : Fin 1))
      = ((Real.exp (μ p - μ' p) * lam p + ∑ q, Real.exp (zt A B b p q - μ' p) : ℝ) : EReal) := by
  unfold k0_pay7
  rw [shapeCast_self, addf_apply, mulf_apply, shapeCast_a_a1_apply, lane_sum_apply, exp_apply, subf_apply, hμ, hμ' p, hl,
    ← EReal.coe_sub, Ideal.exp_coe, ← EReal.coe_mul]
  have hsum : ∑ k : Fin 1024, exp (subf (k0_pay5 x0 x1 x2) (broadcastTo S2048x1024 (k0_pay6 x0 x1 x2 xs0) broadcasts_S2048x1_S2048x1024)) (ix2 p k)
      = ((∑ q : Fin 1024, Real.exp (zt A B b p q - μ' p) : ℝ) : EReal) := by
    rw [coe_sum]
    refine Finset.sum_congr rfl fun k _ => ?_
    rw [exp_apply, subf_apply, broadcastTo_a1_ab_apply, pay5_at x0 x1 x2 A B b hx0 hx1 hx2, hμ' p, ← EReal.coe_sub, Ideal.exp_coe]
  rw [hsum, ← EReal.coe_add]
theorem pay2_at (v39 v40 : Vec Ideal S2048x1 .f32) (μ lam : Fin 2048 → ℝ)
    (h39 : ∀ p : Fin 2048, v39 (ix2 p (0 : Fin 1)) = ((μ p : ℝ) : EReal)) (h40 : ∀ p : Fin 2048, v40 (ix2 p (0 : Fin 1)) = ((lam p : ℝ) : EReal))
    (hpos : ∀ p, 0 < lam p) (p : Fin 2048) :
    k0_pay2 v39 v40 (ix2 p (0 : Fin 1)) = ((μ p + Real.log (lam p) : ℝ) : EReal) := by
  unfold k0_pay2
  rw [addf_apply, log_apply, h39, h40, Ideal.log_coe, if_neg (not_le.mpr (hpos p)), ← EReal.coe_add]

end Cert.KernelIdeal.Lse

end
-- ==== Proof.IdealBlocks.lean ====
/-
  What the region's three input windows hold at each grid point, at the ideal instance, when X and W hold real numbers.
  Before the region the host squares W entrywise and sums each row (the class's squared norm), reshapes those 8192
  sums to a row, and changes X and W to a narrower float format, which on the extended reals changes nothing. Grid
  point t is row tile t / 8, column tile t % 8: the first window's block is rows 2048 (t / 8) .. of X, the second's is
  rows 1024 (t % 8) .. of W, the third's is entries 1024 (t % 8) .. of the row of squared norms.
-/
import proofs.«429192_j76416058131339_3_alg».proof.Proof.IdealFrame
import proofs.«429192_j76416058131339_3_alg».proof.Proof.LseSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

namespace Cert.KernelIdeal.Lse

open Cert.KernelIdeal Cert.KernelIdeal.Gen
open Idealize.ShloMosaic Idealize.ShloMosaic.TcCoe Idealize.ShloMosaic.ValueIdx Idealize.SL.Sem
open Idealize.ShloMosaic.Pipeline (Dat)

/-- The row of X that row `p` of the block at point `t` is: row tile `t / 8`. -/
def rowOf (t : Fin cfg0.N) (p : Fin 2048) : Fin 8192 :=
  ⟨2048 * (t.val / 8) + p.val, by have h : t.val < 32 := lt_of_lt_of_eq t.isLt N_0; have := p.isLt; omega⟩
/-- The class that row `q` of the class block at point `t` is: column tile `t % 8`. -/
def clsOf (t : Fin cfg0.N) (q : Fin 1024) : Fin 8192 :=
  ⟨1024 * (t.val % 8) + q.val, by have := q.isLt; omega⟩

/-! ## The index maps over the grid -/

/-- The first window's block index at point `t`: row tile `t / 8`, the one column tile. -/
theorem blk_index_x : ∀ t : Fin cfg0.N, win0_0.index t 0 = t.val / 8 ∧ win0_0.index t 1 = 0 :=
  (by decide +kernel : ∀ t : Fin grid0.N, win0_0.index t 0 = t.val / 8 ∧ win0_0.index t 1 = 0)
/-- The second window's block index at point `t`: class tile `t % 8`, the one feature tile. -/
theorem blk_index_w : ∀ t : Fin cfg0.N, win0_1.index t 0 = t.val % 8 ∧ win0_1.index t 1 = 0 :=
  (by decide +kernel : ∀ t : Fin grid0.N, win0_1.index t 0 = t.val % 8 ∧ win0_1.index t 1 = 0)
/-- The third window's block index at point `t`: the one row, class tile `t % 8`. -/
theorem blk_index_w2 : ∀ t : Fin cfg0.N, win0_2.index t 0 = 0 ∧ win0_2.index t 1 = t.val % 8 :=
  (by decide +kernel : ∀ t : Fin grid0.N, win0_2.index t 0 = 0 ∧ win0_2.index t 1 = t.val % 8)

/-- The cast of a finite sum of reals into the extended reals is the sum of the casts. -/
theorem blk_coe_sum {ι : Type} (s : Finset ι) (a : ι → ℝ) : ((∑ i ∈ s, a i : ℝ) : EReal) = ∑ i ∈ s, ((a i : ℝ) : EReal) := by
  classical
  induction s using Finset.induction_on with
  | empty => simp
  | insert i s hi ih => rw [Finset.sum_insert hi, Finset.sum_insert hi, EReal.coe_add, ih]

/-- The host's row of squared row norms of an array holding a real matrix: the entrywise square summed along each row
    from the host's zero, the 8192 sums reshaped to one row. Entry (0, k) is the squared norm of row k. -/
theorem blk_sqrow_apply (A : FVec Ideal S8192x1024 .f32) (W : Fin 8192 → Fin 1024 → ℝ)
    (hA : ∀ (k : Fin 8192) (f : Fin 1024), A (ix2 k f) = ((W k f : ℝ) : EReal)) (k : Fin 8192) :
    shapeCast S1x8192 (Host.reduceAdd (F := Ideal) (mulf A A) (constant (F := Ideal) S_ .f32 0x00000000#32)
        Facts₀.reducesTo_S8192x1024_S8192_d1 Facts₀.h_S_) Facts₀.shapeCasts_S8192_S1x8192 (ix2 (0 : Fin 1) k)
      = ((LseSpec.sq W k : ℝ) : EReal) := by
  have hr : S8192x1024.Reduces [1] S8192 := by decide
  have hl : ∀ f : Fin 1024, hr.lift (ix1 k) f = ix2 k f := fun f => funext fun a => by
    match a with
    | ⟨0, _⟩ => exact Fin.ext rfl
    | ⟨1, _⟩ => exact Fin.ext rfl
  rw [shapeCast_a_1a_apply, hostReduceAdd_apply, Ideal.hostReduceAdd_single Facts₀.reducesTo_S8192x1024_S8192_d1 hr]
  show Ideal.ofBits .f32 0x00000000#32 + ∑ f : Fin 1024, mulf A A (hr.lift (ix1 k) f) = _
  rw [Ideal.ofBits_zero_f32, zero_add]
  unfold LseSpec.sq
  rw [blk_coe_sum]
  exact Finset.sum_congr rfl fun f _ => by rw [hl f, mulf_apply, hA, ← EReal.coe_mul]

variable (m : (ℓ : Loc nD τ sig) → Buf (Elt Ideal) ℓ) (c : Dev nD) (X W : Fin 8192 → Fin 1024 → ℝ)

/-! ## The three arrays as the region finds them -/

/-- The first window's array is X in the narrower format: entry by entry X itself. -/
theorem blk_arr_x (i : S8192x1024.Idx) :
    (V m c main_v8 : S8192x1024.Idx → Ideal .bf16) i = m ((c : Thread nD τ).loc main_arg0) i := by
  show StableHlo.after (List.flatten [hostOps0]) (fun b => m (c, b)) (Proc.devRef .tc main_v8) i = _
  simp only [hostOps0, List.flatten_cons, List.flatten_nil, List.append_nil]
  after_results
  rfl
/-- The second window's array is W in the narrower format: entry by entry W itself. -/
theorem blk_arr_w (i : S8192x1024.Idx) :
    (V m c main_v9 : S8192x1024.Idx → Ideal .bf16) i = m ((c : Thread nD τ).loc main_arg1) i := by
  show StableHlo.after (List.flatten [hostOps0]) (fun b => m (c, b)) (Proc.devRef .tc main_v9) i = _
  simp only [hostOps0, List.flatten_cons, List.flatten_nil, List.append_nil]
  after_results
  rfl

/-- The third window's array is the row of W's squared row norms, as the host computes it from W. -/
theorem blk_arr_w2 : (V m c main_v10 : S1x8192.Idx → Ideal .f32)
    = shapeCast S1x8192 (Host.reduceAdd (F := Ideal) (mulf (m ((c : Thread nD τ).loc main_arg1)) (m ((c : Thread nD τ).loc main_arg1)))
        (constant (F := Ideal) S_ .f32 0x00000000#32) Facts₀.reducesTo_S8192x1024_S8192_d1 Facts₀.h_S_) Facts₀.shapeCasts_S8192_S1x8192 := by
  show StableHlo.after (List.flatten [hostOps0]) (fun b => m (c, b)) (Proc.devRef .tc main_v10) = _
  simp only [hostOps0, List.flatten_cons, List.flatten_nil, List.append_nil]
  after_results
  rfl

/-! ## The blocks -/

theorem blk_x (hX : ∀ (r : Fin 8192) (f : Fin 1024), m ((c : Thread nD τ).loc main_arg0) (ix2 r f) = ((X r f : ℝ) : EReal))
    (t : Fin cfg0.N) (p : Fin 2048) (f : Fin 1024) :
    (iblk m c 0 t : Vec Ideal S2048x1024 .bf16) (ix2 p f) = ((X (rowOf t p) f : ℝ) : EReal) := by
  have hi := blk_index_x t
  unfold iblk
  rw [View.read_apply]
  show V m c main_v8 _ = _
  refine (blk_arr_x m c _).trans (Eq.trans ?_ (hX (rowOf t p) f))
  congr 1
  funext a
  apply Fin.ext
  match a with
  | ⟨0, _⟩ => show win0_0.index t 0 * 2048 + 1 * p.val = 2048 * (t.val / 8) + p.val; rw [hi.1]; omega
  | ⟨1, _⟩ => show win0_0.index t 1 * 1024 + 1 * f.val = f.val; rw [hi.2]; omega
theorem blk_w (hW : ∀ (k : Fin 8192) (f : Fin 1024), m ((c : Thread nD τ).loc main_arg1) (ix2 k f) = ((W k f : ℝ) : EReal))
    (t : Fin cfg0.N) (q : Fin 1024) (f : Fin 1024) :
    (iblk m c 1 t : Vec Ideal S1024x1024 .bf16) (ix2 q f) = ((W (clsOf t q) f : ℝ) : EReal) := by
  have hi := blk_index_w t
  unfold iblk
  rw [View.read_apply]
  show V m c main_v9 _ = _
  refine (blk_arr_w m c _).trans (Eq.trans ?_ (hW (clsOf t q) f))
  congr 1
  funext a
  apply Fin.ext
  match a with
  | ⟨0, _⟩ => show win0_1.index t 0 * 1024 + 1 * q.val = 1024 * (t.val % 8) + q.val; rw [hi.1]; omega
  | ⟨1, _⟩ => show win0_1.index t 1 * 1024 + 1 * f.val = f.val; rw [hi.2]; omega
theorem blk_w2 (hW : ∀ (k : Fin 8192) (f : Fin 1024), m ((c : Thread nD τ).loc main_arg1) (ix2 k f) = ((W k f : ℝ) : EReal))
    (t : Fin cfg0.N) (q : Fin 1024) :
    (iblk m c 2 t : Vec Ideal S1x1024 .f32) (ix2 (0 : Fin 1) q) = ((LseSpec.sq W (clsOf t q) : ℝ) : EReal) := by
  have hi := blk_index_w2 t
  unfold iblk
  rw [View.read_apply]
  show (V m c main_v10 : S1x8192.Idx → Ideal .f32) _ = _
  rw [blk_arr_w2]
  refine Eq.trans ?_ (blk_sqrow_apply (m ((c : Thread nD τ).loc main_arg1)) W hW (clsOf t q))
  congr 1
  funext a
  apply Fin.ext
  match a with
  | ⟨0, _⟩ => show win0_2.index t 0 * 1 + 1 * 0 = 0; rw [hi.1]
  | ⟨1, _⟩ => show win0_2.index t 1 * 1024 + 1 * q.val = 1024 * (t.val % 8) + q.val; rw [hi.2]; omega

end Cert.KernelIdeal.Lse

end
-- ==== Proof.IdealRegion.lean ====
/-
  The region's result array, at the ideal instance, when X and W hold real numbers: entry r is the log-sum-exp of
  row r's 8192 shifted logits. The region finds X and W in its first two arrays (the change of float format before it
  is the identity on the extended reals) and W's squared row norms, as a row, in the third. Row tile i, column tile j
  reads rows 2048 i .. of X, rows 1024 j .. of W and entries 1024 j .. of the norms, so its logits are
  z (2048 i + p) (1024 j + q). By induction over the points: after column tile j of row tile i the running maximum
  is some real number in every row and the running sum is the sum, over the classes below 1024 (j + 1), of
  exp (z - that number); at the last column tile the value written out, maximum plus logarithm of the sum, is the
  log-sum-exp whatever the number. Each row tile's block is written back at its last column tile and the four blocks
  cover the array.
-/
import proofs.«429192_j76416058131339_3_alg».proof.Proof.IdealPieces
import proofs.«429192_j76416058131339_3_alg».proof.Proof.IdealPayload
import proofs.«429192_j76416058131339_3_alg».proof.Proof.IdealBlocks

set_option maxRecDepth 16384

noncomputable section

namespace Cert.KernelIdeal.Lse

open Cert.KernelIdeal Cert.KernelIdeal.Gen
open Idealize.ShloMosaic Idealize.ShloMosaic.TcCoe Idealize.ShloMosaic.ValueIdx Idealize.SL.Sem
open Idealize.ShloMosaic.Pipeline (Dat)

section Region

/-! ## The classes summed so far -/

/-- The classes below a bound. -/
def below (b : ℕ) : Finset (Fin 8192) := Finset.univ.filter fun k => k.val < b
/-- The classes of column tile `j`. -/
def tile (j : ℕ) : Finset (Fin 8192) := Finset.univ.filter fun k => 1024 * j ≤ k.val ∧ k.val < 1024 * (j + 1)

theorem below_zero : below (1024 * 0) = ∅ := by
  ext k; simp only [below, Finset.mem_filter, Finset.mem_univ, true_and, Finset.notMem_empty, iff_false]; omega
theorem below_union (j : ℕ) : below (1024 * j) ∪ tile j = below (1024 * (j + 1)) := by
  ext k; simp only [below, tile, Finset.mem_union, Finset.mem_filter, Finset.mem_univ, true_and]; omega
theorem below_disjoint (j : ℕ) : Disjoint (below (1024 * j)) (tile j) := by
  rw [Finset.disjoint_left]; intro k hk hk'
  simp only [below, tile, Finset.mem_filter, Finset.mem_univ, true_and] at hk hk'; omega
theorem below_all : below (1024 * (7 + 1)) = Finset.univ := by
  ext k; simp only [below, Finset.mem_filter, Finset.mem_univ, true_and, iff_true]; have := k.isLt; omega

/-- A sum over the rows of the class block at point `t` is the sum over the classes of its column tile. -/
theorem sum_tile (t : Fin cfg0.N) (f : Fin 8192 → ℝ) :
    ∑ q : Fin 1024, f (clsOf t q) = ∑ k ∈ tile (t.val % 8), f k := by
  refine Finset.sum_bij (fun q _ => clsOf t q) (fun q _ => ?_) (fun q _ q' _ h => ?_) (fun k hk => ?_) (fun q _ => rfl)
  · simp only [tile, Finset.mem_filter, Finset.mem_univ, true_and, clsOf]; have := q.isLt; omega
  · have := congrArg Fin.val h; simp only [clsOf] at this; exact Fin.ext (by omega)
  · simp only [tile, Finset.mem_filter, Finset.mem_univ, true_and] at hk
    exact ⟨⟨k.val - 1024 * (t.val % 8), by omega⟩, Finset.mem_univ _, Fin.ext (by simp only [clsOf]; omega)⟩

variable (m : (ℓ : Loc nD τ sig) → Buf (Elt Ideal) ℓ) (c : Dev nD) (X W : Fin 8192 → Fin 1024 → ℝ)

/-- A tile's logit over the blocks at point `t` is the logit of the block's row against the block's class. -/
theorem zt_blocks (t : Fin cfg0.N) (p : Fin 2048) (q : Fin 1024) :
    zt (fun p f => X (rowOf t p) f) (fun q f => W (clsOf t q) f) (fun q => LseSpec.sq W (clsOf t q)) p q
      = LseSpec.z X W (rowOf t p) (clsOf t q) := rfl

/-- One column tile's update on real-valued blocks and real running values: the new maximum is real, the new sum is
    the rescaled old sum plus the tile's sum of exponentials. -/
theorem tile_step (x0 : Vec Ideal S2048x1024 .bf16) (x1 : Vec Ideal S1024x1024 .bf16) (x2 : Vec Ideal S1x1024 .f32) (xs0 xs1 : Vec Ideal S2048x1 .f32)
    (A : Fin 2048 → Fin 1024 → ℝ) (B : Fin 1024 → Fin 1024 → ℝ) (b : Fin 1024 → ℝ)
    (hx0 : ∀ (p : Fin 2048) (f : Fin 1024), x0 (ix2 p f) = ((A p f : ℝ) : EReal)) (hx1 : ∀ (q : Fin 1024) (f : Fin 1024), x1 (ix2 q f) = ((B q f : ℝ) : EReal)) (hx2 : ∀ q : Fin 1024, x2 (ix2 (0 : Fin 1) q) = ((b q : ℝ) : EReal))
    (μ lam : Fin 2048 → ℝ) (hμ : ∀ p : Fin 2048, xs0 (ix2 p (0 : Fin 1)) = ((μ p : ℝ) : EReal)) (hl : ∀ p : Fin 2048, xs1 (ix2 p (0 : Fin 1)) = ((lam p : ℝ) : EReal)) :
    ∃ μ' : Fin 2048 → ℝ, (∀ p : Fin 2048, k0_pay1 (k0_pay6 x0 x1 x2 xs0) (ix2 p (0 : Fin 1)) = ((μ' p : ℝ) : EReal))
      ∧ ∀ p : Fin 2048, k0_pay7 x0 x1 x2 xs0 xs1 (ix2 p (0 : Fin 1))
          = ((Real.exp (μ p - μ' p) * lam p + ∑ q, Real.exp (zt A B b p q - μ' p) : ℝ) : EReal) := by
  obtain ⟨μ', hμ'⟩ := pay6_real x0 x1 x2 xs0 A B b hx0 hx1 hx2 μ hμ
  refine ⟨μ', fun p => ?_, fun p => pay7_at x0 x1 x2 xs0 xs1 A B b hx0 hx1 hx2 μ μ' lam hμ hμ' hl p⟩
  rw [pay1_self]; exact hμ' p

variable (hX : ∀ (r : Fin 8192) (f : Fin 1024), m ((c : Thread nD τ).loc main_arg0) (ix2 r f) = ((X r f : ℝ) : EReal))
  (hW : ∀ (k : Fin 8192) (f : Fin 1024), m ((c : Thread nD τ).loc main_arg1) (ix2 k f) = ((W k f : ℝ) : EReal))

/-- The new running maximum at point `t` from the old one. -/
abbrev newMax (t : Fin cfg0.N) (xs0 : Vec Ideal S2048x1 .f32) : Vec Ideal S2048x1 .f32 :=
  k0_pay1 (k0_pay6 (iblk m c 0 t) (iblk m c 1 t) (iblk m c 2 t) xs0)
/-- The new running sum at point `t` from the old maximum and sum. -/
abbrev newSum (t : Fin cfg0.N) (xs0 xs1 : Vec Ideal S2048x1 .f32) : Vec Ideal S2048x1 .f32 :=
  k0_pay7 (iblk m c 0 t) (iblk m c 1 t) (iblk m c 2 t) xs0 xs1
/-- What the point before `t` left in the running maximum and in the running sum. -/
abbrev prevMax (t : Fin cfg0.N) : Vec Ideal S2048x1 .f32 := (outsAt0 m c (t.val - 1) (Nat.lt_of_le_of_lt (Nat.sub_le _ _) t.isLt)).2.1
abbrev prevSum (t : Fin cfg0.N) : Vec Ideal S2048x1 .f32 := (outsAt0 m c (t.val - 1) (Nat.lt_of_le_of_lt (Nat.sub_le _ _) t.isLt)).2.2

include hX hW in
/-- The update at point `t`, from running values that are real and whose sum is the sum over the classes before the
    point's column tile: the new ones are real and the new sum is the sum over the classes up to the tile's end. -/
theorem point_step (t : Fin cfg0.N) (xs0 xs1 : Vec Ideal S2048x1 .f32) (μ lam : Fin 2048 → ℝ)
    (hμ : ∀ p : Fin 2048, xs0 (ix2 p (0 : Fin 1)) = ((μ p : ℝ) : EReal)) (hl : ∀ p : Fin 2048, xs1 (ix2 p (0 : Fin 1)) = ((lam p : ℝ) : EReal))
    (hsum : ∀ p : Fin 2048, lam p = ∑ k ∈ below (1024 * (t.val % 8)), Real.exp (LseSpec.z X W (rowOf t p) k - μ p)) :
    ∃ μ' lam' : Fin 2048 → ℝ,
      (∀ p : Fin 2048, newMax m c t xs0 (ix2 p (0 : Fin 1)) = ((μ' p : ℝ) : EReal))
      ∧ (∀ p : Fin 2048, newSum m c t xs0 xs1 (ix2 p (0 : Fin 1)) = ((lam' p : ℝ) : EReal))
      ∧ ∀ p : Fin 2048, lam' p = ∑ k ∈ below (1024 * (t.val % 8 + 1)), Real.exp (LseSpec.z X W (rowOf t p) k - μ' p) := by
  obtain ⟨μ', hμ', hl'⟩ := tile_step (iblk m c 0 t) (iblk m c 1 t) (iblk m c 2 t) xs0 xs1
    (fun p f => X (rowOf t p) f) (fun q f => W (clsOf t q) f) (fun q => LseSpec.sq W (clsOf t q))
    (blk_x m c X hX t) (blk_w m c W hW t) (blk_w2 m c W hW t) μ lam hμ hl
  refine ⟨μ', fun p => Real.exp (μ p - μ' p) * lam p + ∑ q, Real.exp (zt (fun p f => X (rowOf t p) f) (fun q f => W (clsOf t q) f) (fun q => LseSpec.sq W (clsOf t q)) p q - μ' p), hμ', hl', fun p => ?_⟩
  have e := LseSpec.online_step (below (1024 * (t.val % 8))) (tile (t.val % 8)) (below_disjoint _)
    (fun k => LseSpec.z X W (rowOf t p) k) (μ p) (μ' p)
  rw [below_union] at e
  rw [← e, ← sum_tile t fun k => Real.exp (LseSpec.z X W (rowOf t p) k - μ' p), ← hsum p]
  rfl

/-! ## The three components after each point, as the body's arithmetic of the blocks and of what the point before left -/

theorem first_max (t : Fin cfg0.N) (h0 : t.val % 8 = 0) :
    (outsAt0 m c t.val t.isLt).2.1 = newMax m c t (k0_pay3 (F := Ideal)) := by
  have h1 : ¬t.val % 8 = 7 := by omega
  rw [outsAt0_A m c t h0 h1]; dsimp only
  exact sout_first_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)
theorem first_sum (t : Fin cfg0.N) (h0 : t.val % 8 = 0) :
    (outsAt0 m c t.val t.isLt).2.2 = newSum m c t (k0_pay3 (F := Ideal)) (k0_pay4 (F := Ideal)) := by
  have h1 : ¬t.val % 8 = 7 := by omega
  rw [outsAt0_A m c t h0 h1]; dsimp only
  exact sout_first_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)
theorem next_max (t : Fin cfg0.N) (h0 : ¬t.val % 8 = 0) :
    (outsAt0 m c t.val t.isLt).2.1 = newMax m c t (prevMax m c t) := by
  by_cases h1 : t.val % 8 = 7
  · rw [outsAt0_C m c t h0 h1]; dsimp only
    exact sout_last_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevMax m c t) (prevSum m c t)
  · rw [outsAt0_B m c t h0 h1]; dsimp only
    exact sout_mid_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (prevMax m c t) (prevSum m c t)
theorem next_sum (t : Fin cfg0.N) (h0 : ¬t.val % 8 = 0) :
    (outsAt0 m c t.val t.isLt).2.2 = newSum m c t (prevMax m c t) (prevSum m c t) := by
  by_cases h1 : t.val % 8 = 7
  · rw [outsAt0_C m c t h0 h1]; dsimp only
    exact sout_last_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevMax m c t) (prevSum m c t)
  · rw [outsAt0_B m c t h0 h1]; dsimp only
    exact sout_mid_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (prevMax m c t) (prevSum m c t)
theorem last_out (t : Fin cfg0.N) (h1 : t.val % 8 = 7) :
    (outsAt0 m c t.val t.isLt).1 = k0_pay2 (newMax m c t (prevMax m c t)) (newSum m c t (prevMax m c t) (prevSum m c t)) := by
  have h0 : ¬t.val % 8 = 0 := by omega
  rw [outsAt0_C m c t h0 h1]; dsimp only
  exact out_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevMax m c t) (prevSum m c t)

/-! ## The invariant, by induction over the points -/

/-- After position `n`: the running maximum is a real number in every row, and the running sum is the sum, over the
    classes below the end of the position's column tile, of the exponentials of the logits minus that number. -/
def Inv (n : ℕ) (h : n < cfg0.N) : Prop :=
  ∃ μ lam : Fin 2048 → ℝ,
    (∀ p : Fin 2048, (outsAt0 m c n h).2.1 (ix2 p (0 : Fin 1)) = ((μ p : ℝ) : EReal))
    ∧ (∀ p : Fin 2048, (outsAt0 m c n h).2.2 (ix2 p (0 : Fin 1)) = ((lam p : ℝ) : EReal))
    ∧ ∀ p : Fin 2048, lam p = ∑ k ∈ below (1024 * (n % 8 + 1)), Real.exp (LseSpec.z X W (rowOf ⟨n, h⟩ p) k - μ p)

include hX hW in
/-- A first column tile starts from the start value and zero: the sum over no class. -/
theorem inv_first (t : Fin cfg0.N) (h0 : t.val % 8 = 0) : Inv m c X W t.val t.isLt := by
  obtain ⟨ν, hν⟩ := pay3_real
  obtain ⟨μ', lam', hμ', hl', hsum'⟩ := point_step m c X W hX hW t (k0_pay3 (F := Ideal)) (k0_pay4 (F := Ideal))
    (fun _ => ν) (fun _ => 0) hν pay4_zero (fun p => by rw [h0, below_zero, Finset.sum_empty])
  exact ⟨μ', lam', fun p => (congrFun (first_max m c t h0) (ix2 p (0 : Fin 1))).trans (hμ' p),
    fun p => (congrFun (first_sum m c t h0) (ix2 p (0 : Fin 1))).trans (hl' p), hsum'⟩

include hX hW in
/-- A later column tile updates what the tile before left, in the same rows. -/
theorem inv_next (t : Fin cfg0.N) (h0 : ¬t.val % 8 = 0)
    (ih : Inv m c X W (t.val - 1) (Nat.lt_of_le_of_lt (Nat.sub_le _ _) t.isLt)) :
    ∃ μ' lam' : Fin 2048 → ℝ,
      (∀ p : Fin 2048, newMax m c t (prevMax m c t) (ix2 p (0 : Fin 1)) = ((μ' p : ℝ) : EReal))
      ∧ (∀ p : Fin 2048, newSum m c t (prevMax m c t) (prevSum m c t) (ix2 p (0 : Fin 1)) = ((lam' p : ℝ) : EReal))
      ∧ ∀ p : Fin 2048, lam' p = ∑ k ∈ below (1024 * (t.val % 8 + 1)), Real.exp (LseSpec.z X W (rowOf t p) k - μ' p) := by
  obtain ⟨μ, lam, hμ, hl, hsum⟩ := ih
  have hrow : ∀ p : Fin 2048, rowOf (⟨t.val - 1, Nat.lt_of_le_of_lt (Nat.sub_le _ _) t.isLt⟩ : Fin cfg0.N) p = rowOf t p :=
    fun p => Fin.ext (by simp only [rowOf]; omega)
  have hj : (t.val - 1) % 8 + 1 = t.val % 8 := by omega
  exact point_step m c X W hX hW t (prevMax m c t) (prevSum m c t) μ lam hμ hl (fun p => by rw [hsum p, hrow p, hj])

include hX hW in
theorem inv_all : ∀ (n : ℕ) (h : n < cfg0.N), Inv m c X W n h := by
  intro n
  induction n with
  | zero => intro h; exact inv_first m c X W hX hW ⟨0, h⟩ rfl
  | succ n ih =>
    intro h
    by_cases h0 : (n + 1) % 8 = 0
    · exact inv_first m c X W hX hW ⟨n + 1, h⟩ h0
    · obtain ⟨μ', lam', hμ', hl', hsum'⟩ := inv_next m c X W hX hW ⟨n + 1, h⟩ h0 (ih (Nat.lt_of_succ_lt h))
      exact ⟨μ', lam', fun p => (congrFun (next_max m c ⟨n + 1, h⟩ h0) (ix2 p (0 : Fin 1))).trans (hμ' p),
        fun p => (congrFun (next_sum m c ⟨n + 1, h⟩ h0) (ix2 p (0 : Fin 1))).trans (hl' p), hsum'⟩

include hX hW in
/-- At a last column tile the value written out is the row's log-sum-exp: the sum runs over every class, is positive,
    and a log-sum-exp does not depend on the number it is computed against. -/
theorem out_value (t : Fin cfg0.N) (h1 : t.val % 8 = 7) (p : Fin 2048) :
    (outsAt0 m c t.val t.isLt).1 (ix2 p (0 : Fin 1)) = ((LseSpec.lse X W (rowOf t p) : ℝ) : EReal) := by
  have h0 : ¬t.val % 8 = 0 := by omega
  obtain ⟨μ', lam', hμ', hl', hsum'⟩ := inv_next m c X W hX hW t h0 (inv_all m c X W hX hW _ _)
  have hpos : ∀ p : Fin 2048, 0 < lam' p := fun p => by
    rw [hsum' p]
    exact Finset.sum_pos (fun k _ => Real.exp_pos _)
      ⟨⟨0, by norm_num⟩, by simp only [below, Finset.mem_filter, Finset.mem_univ, true_and]; omega⟩
  rw [last_out m c t h1]
  refine (pay2_at (newMax m c t (prevMax m c t)) (newSum m c t (prevMax m c t) (prevSum m c t)) μ' lam' hμ' hl' hpos p).trans ?_
  rw [hsum' p, h1, below_all]
  exact congrArg _ (LseSpec.log_sum_exp_shift Finset.univ Finset.univ_nonempty (fun k => LseSpec.z X W (rowOf t p) k) (μ' p))

/-! ## From the blocks to the array -/

/-- The array the region's result window ends at: entry `r` is row `r`'s log-sum-exp. -/
abbrev lseArr : S8192x1.Idx → Elt Ideal .f32 := fun i => ((LseSpec.lse X W ⟨(i 0).val, idx2_lt0 i⟩ : ℝ) : EReal)

/-- The result window's block index at point `t`: the row tile, and the one column. -/
theorem out_index : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

include hX hW in
/-- The output block after a last column tile, as a function of the index. -/
theorem out_fun (t : Fin cfg0.N) (h1 : t.val % 8 = 7) :
    (outsAt0 m c t.val t.isLt).1 = fun j : S2048x1.Idx => ((LseSpec.lse X W (rowOf t (j 0)) : ℝ) : EReal) := by
  funext j
  obtain ⟨p, q, rfl⟩ : ∃ (p : Fin 2048) (q : Fin 1), j = ix2 p q := ⟨j 0, j 1, eq_ix2 j⟩
  obtain rfl : q = 0 := Subsingleton.elim _ _
  exact out_value m c X W hX hW t h1 p

include hX hW in
/-- What a last column tile writes back is its block of the array of log-sum-exps. -/
theorem flushed_eq (t : Fin cfg0.N) (hf : (cfg0.win 3).flush t = true) :
    (dats m 0 c).flushed 3 t = ((cfg0.win 3).blk t).view.read (Elt Ideal) (lseArr X W) := by
  have h1 : t.val % 8 = 7 := (flush0_3 t).mp hf
  obtain ⟨e0, e1⟩ := out_index t
  show (cfg0.win 3).cut (grid0.coords t) ((dats m 0 c).after 3 t) = _
  rw [after0_3, out_fun m c X W hX hW t h1]
  funext j
  show ((LseSpec.lse X W (rowOf t (j 0)) : ℝ) : EReal) = lseArr X W (((cfg0.win 3).blk t).view.emb j)
  refine congrArg (fun r : Fin 8192 => ((LseSpec.lse X W r : ℝ) : EReal)) (Fin.ext ?_)
  show 2048 * (t.val / 8) + (j 0).val = win0_3.index t (0 : Fin 2) * 2048 + 1 * (j 0).val
  rw [e0]; omega

/-- An index of the array is in point `t`'s block iff each coordinate is in the block's range on its axis. -/
theorem mem_blk (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v11).slice (win0_3.rect t)).set ↔ _
  rw [View.set_slice_whole, Rect.mem_set_unit]
  exact Iff.rfl

/-- Row `r` is in the block the last column tile of its row tile writes back. -/
theorem cover (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  have hN : cfg0.N = 32 := N_0
  obtain ⟨t, ht⟩ : ∃ t : Fin cfg0.N, t.val = 8 * ((i 0).val / 2048) + 7 := ⟨⟨8 * ((i 0).val / 2048) + 7, by omega⟩, rfl⟩
  obtain ⟨e0, e1⟩ := out_index t
  refine ⟨t, (flush0_3 t).mpr (by omega), ?_⟩
  rw [mem_blk]
  intro a
  match a with
  | ⟨0, _⟩ => show win0_3.index t (0 : Fin 2) * 2048 ≤ (i 0).val ∧ (i 0).val < win0_3.index t (0 : Fin 2) * 2048 + 2048
              rw [e0]; omega
  | ⟨1, _⟩ => show win0_3.index t (1 : Fin 2) * 1 ≤ (i 1).val ∧ (i 1).val < win0_3.index t (1 : Fin 2) * 1 + 1
              rw [e1]; omega

include hX hW in
/-- So the result array ends holding the log-sum-exp of every row. -/
theorem final : (dats m 0 c).arrAt 3 cfg0.N = lseArr X W :=
  (dats m 0 c).arrAt_eq_of_cover 3 (lseArr X W) (flushed_eq m c X W hX hW) (fun i => cover i)

end Region

theorem region_value (m : (ℓ : Loc nD τ sig) → Buf (Elt Ideal) ℓ) (c : Dev nD)
    (X W : Fin 8192 → Fin 1024 → ℝ)
    (hX : ∀ (r : Fin 8192) (f : Fin 1024), m ((c : Thread nD τ).loc main_arg0) (ix2 r f) = ((X r f : ℝ) : EReal))
    (hW : ∀ (k : Fin 8192) (f : Fin 1024), m ((c : Thread nD τ).loc main_arg1) (ix2 k f) = ((W k f : ℝ) : EReal))
    (r : Fin 8192) :
    (dats m 0 c).arrAt 3 cfg0.N (ix2 r (0 : Fin 1)) = ((LseSpec.lse X W r : ℝ) : EReal) :=
  (congrFun (final m c X W hX hW) (ix2 r (0 : Fin 1))).trans rfl

end Cert.KernelIdeal.Lse

end
-- ==== Proof.IdealTail.lean ====
/-
  The kernel program's result from the region's result array, at the ideal instance, for real X and W and labels in
  range. After the region the host gathers, for every row r, row y r of W and entry y r of W's squared norms (a label
  below the class count is in range, so neither gather's out-of-range fill is selected), forms the row's true-class
  shifted logit (2 x_r.w_{y r} - |w_{y r}|^2) / 1024 = z r (y r), subtracts it from the region's entry for the row,
  takes the mean over the 8192 rows, and adds the regularisation word times the mean square of X (computed before the
  region as the mean of the squared row norms over the feature count).
-/
import proofs.«429192_j76416058131339_3_alg».proof.Proof.IdealClose
import proofs.«429192_j76416058131339_3_alg».proof.Proof.LseSpec
import proofs.«429192_j76416058131339_3_alg».proof.Proof.LibTypedRead
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.Lse

open Cert.KernelIdeal Cert.KernelIdeal.Gen
open Idealize.ShloMosaic Idealize.ShloMosaic.TcCoe Idealize.ShloMosaic.ValueIdx Idealize.SL.Sem
open Idealize.ShloMosaic.Pipeline (Dat)

namespace Tail

/-! ## Sums, words and layout operations read at an index -/

/-- The coercion of a finite real sum is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem word_two : Ideal.ofBits .f32 0x40000000#32 = ((2 : ℝ) : EReal) := by
  simp [Ideal.ofBits, Ideal.ieee]
  rw [← EReal.coe_mul]
  norm_num
theorem word_1024 : Ideal.ofBits .f32 0x44800000#32 = ((1024 : ℝ) : EReal) := by
  simp [Ideal.ofBits, Ideal.ieee]
  rw [← EReal.coe_mul]
  norm_num
theorem word_8192 : Ideal.ofBits .f32 0x46000000#32 = ((8192 : ℝ) : EReal) := by
  simp [Ideal.ofBits, Ideal.ieee]
  rw [← EReal.coe_mul]
  norm_num

/-- A vector laid along the first axis of a rectangle reads, at (p, q), the vector at p. -/
theorem bcast_axis0 {α : Type} {n k : Nat} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A vector recast as a column reads, at (i, 0), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The host's sum along the rows of an 8192 x 1024 array, at row r: the initial value plus the row's sum. -/
theorem rowSum_apply (h' : (⟨2, ![8192, 1024]⟩ : Shape).ReducesTo [1] ⟨1, ![8192]⟩) {u : Shape} (hu : 0 < u.numel)
    (x : FVec Ideal ⟨2, ![8192, 1024]⟩ .f32) (init : FVec Ideal u .f32) (r : Fin 8192) :
    Host.reduceAdd x init h' hu (ix1 r) = init (Shape.Idx.first hu) + ∑ f : Fin 1024, x (ix2 r f) := by
  have h : (⟨2, ![8192, 1024]⟩ : Shape).Reduces [1] ⟨1, ![8192]⟩ := by decide
  show Ideal.hostReduceAdd h' x (init (Shape.Idx.first hu)) (ix1 r) = _
  rw [Ideal.hostReduceAdd_single h' h]
  refine congrArg (init (Shape.Idx.first hu) + ·) ?_
  show ∑ f : Fin 1024, x (h.lift (ix1 r) f) = _
  refine Finset.sum_congr rfl fun f _ => congrArg x ?_
  funext a
  match a with
  | ⟨0, _⟩ => exact Fin.ext rfl
  | ⟨1, _⟩ => exact Fin.ext rfl

/-- The host's sum of a column of 8192 entries to a scalar: the initial value plus the sum of the entries. -/
theorem colSum_apply (h' : (⟨2, ![8192, 1]⟩ : Shape).ReducesTo [0, 1] ⟨0, ![]⟩) {u : Shape} (hu : 0 < u.numel)
    (x : FVec Ideal ⟨2, ![8192, 1]⟩ .f32) (init : FVec Ideal u .f32) (j : (⟨0, ![]⟩ : Shape).Idx) :
    Host.reduceAdd x init h' hu j = init (Shape.Idx.first hu) + ∑ r : Fin 8192, x (ix2 r (0 : Fin 1)) := by
  show Ideal.hostReduceAdd h' x (init (Shape.Idx.first hu)) j = _
  rw [Ideal.hostReduceAdd_total h' (fun b => b.elim0), sum_idx2]
  refine congrArg (init (Shape.Idx.first hu) + ·) ?_
  refine Finset.sum_congr rfl fun r _ => ?_
  exact Fin.sum_univ_one _

/-! ## Words: a label in range -/

section Label
variable {y : BitVec 32} (hy : y.toNat < 8192)
include hy

theorem label_not_neg : IntOp.cmpi .slt y 0#32 = 0#1 :=
  eq_zero_of_ne_one fun h => by
    have := (StableHlo.Predicate.slt_iff_toNat (a := y) (b := 0#32) (by omega) (by decide)).mp h
    simp at this
theorem label_ge_zero : IntOp.cmpi .sge y 0#32 = 1#1 :=
  (StableHlo.Predicate.sge_iff_toNat (a := y) (b := 0#32) (by omega) (by decide)).mpr (by simp)
theorem label_le_last : IntOp.cmpi .sle y 8191#32 = 1#1 :=
  (StableHlo.Predicate.sle_iff_toNat (a := y) (b := 8191#32) (by omega) (by decide)).mpr (by
    show y.toNat ≤ 8191; omega)
theorem label_clamp : min y.toInt.toNat (8192 - 1) = y.toNat := by
  rw [StableHlo.Predicate.toInt_eq_toNat_of_lt (by omega), Int.toNat_natCast]; omega
end Label

/-- A left fold by `and` over one-bit words that are all one, from one, is one. -/
theorem foldl_andi_ones {ι : Type} (f : ι → BitVec 1) (hf : ∀ i, f i = 1#1) :
    ∀ (l : List ι) (b : BitVec 1), b = 1#1 → l.foldl (fun r i => IntOp.andi r (f i)) b = 1#1
  | [], _, hb => hb
  | i :: l, b, hb => by
    rw [List.foldl_cons]
    exact foldl_andi_ones f hf l _ (by rw [hb, hf i]; rfl)

/-- So the host's reduction by `and` of an all-ones mask from the bit one is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_ones x hx _ _ (hi _)

/-- The gather of whole rows: row p of the result is the operand's row at p's start index, read signed and clamped
    into [0, 8191]; the column is kept. -/
theorem gatherRows_at (x : FVec Ideal S8192x1024 .f32) (idx : IVec S8192x1 32) (p : Fin 8192) (q : Fin 1024) :
    Host.gather gather_S8192x1024_S8192x1_S8192x1024_1_0_n_n_0_1_11024 x idx (ix2 p q)
      = x (ix2 ⟨min (idx (ix2 p (0 : Fin 1))).toInt.toNat (8192 - 1), by omega⟩ q) := by
  unfold Host.gather
  congr 1
  funext a
  refine Fin.ext ?_
  match a with
  | ⟨0, _⟩ =>
    show gather_S8192x1024_S8192x1_S8192x1024_1_0_n_n_0_1_11024.start (ix2 p q) idx 0
      + gather_S8192x1024_S8192x1_S8192x1024_1_0_n_n_0_1_11024.batchCoord (ix2 p q) 0
      + gather_S8192x1024_S8192x1_S8192x1024_1_0_n_n_0_1_11024.offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S8192x1_S8192x1024_1_0_n_n_0_1_11024.startIndexMap from List.mem_singleton.mpr rfl)]
    have hsi : gather_S8192x1024_S8192x1_S8192x1024_1_0_n_n_0_1_11024.siIdx (ix2 p q)
        ⟨List.idxOf (0 : Fin 2) gather_S8192x1024_S8192x1_S8192x1024_1_0_n_n_0_1_11024.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S8192x1024_S8192x1_S8192x1024_1_0_n_n_0_1_11024.start (ix2 p q) idx 1
      + gather_S8192x1024_S8192x1_S8192x1024_1_0_n_n_0_1_11024.batchCoord (ix2 p q) 1
      + gather_S8192x1024_S8192x1_S8192x1024_1_0_n_n_0_1_11024.offCoord (ix2 p q) 1 = q.val
    rw [GatherDims.batchCoord_eq_zero _ _ _ List.not_mem_nil]
    have hs : gather_S8192x1024_S8192x1_S8192x1024_1_0_n_n_0_1_11024.start (ix2 p q) idx 1 = 0 := by
      unfold GatherDims.start
      rw [dif_neg (by decide)]
    have ho : gather_S8192x1024_S8192x1_S8192x1024_1_0_n_n_0_1_11024.offCoord (ix2 p q) 1 = q.val := by
      unfold GatherDims.offCoord
      rw [dif_pos (by decide)]
      rfl
    rw [hs, ho]
    omega

/-- The gather of single entries: entry p of the result is the operand at p's start index, read signed and clamped. -/
theorem gatherEntries_at (x : FVec Ideal S8192 .f32) (idx : IVec S8192x1 32) (p : Fin 8192) :
    Host.gather gather_S8192_S8192x1_S8192_n_0_n_n_0_1_1 x idx (ix1 p)
      = x (ix1 ⟨min (idx (ix2 p (0 : Fin 1))).toInt.toNat (8192 - 1), by omega⟩) := by
  have e1 : ∀ {n : Nat} (a : Fin n), (Shape.Idx.ofFin a : (⟨1, ![n]⟩ : Shape).Idx) = ix1 a := fun a => by
    funext d; match d with | ⟨0, _⟩ => rfl
  have e2 : (StableHlo.Predicate.ixP p : (⟨2, ![8192, 1]⟩ : Shape).Idx) = ix2 p (0 : Fin 1) := by
    funext d; match d with | ⟨0, _⟩ => rfl | ⟨1, _⟩ => rfl
  have := StableHlo.Predicate.gather_take gather_S8192_S8192x1_S8192_n_0_n_n_0_1_1 rfl rfl rfl rfl x idx p (by decide)
  rw [e1, e1] at this
  refine this.trans (congrArg x (congrArg ix1 (Fin.ext ?_)))
  show min (idx (StableHlo.Predicate.ixP p)).toInt.toNat (8192 - 1) = min (idx (ix2 p (0 : Fin 1))).toInt.toNat (8192 - 1)
  rw [e2]

/-! ## The host operations after the region, stretch by stretch, as functions of what they read -/

/-- The index handling of a take: a negative label counts from the end; the result as a column of start indices. -/
def labelCol (y : IVec S8192 32) : IVec S8192x1 32 :=
  broadcastInDim S8192x1 ![0] bcast_S8192_S8192x1_0
    (select (cmpi .slt y (broadcastInDim S8192 ![] bcast_S_S8192 (constantI S_ 32 0#32)))
      (addi y (broadcastInDim S8192 ![] bcast_S_S8192 (constantI S_ 32 8192#32))) y)

/-- The mask of a take: per row, whether the start index lies in [0, 8191]. -/
def inRange (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The rows of `w` taken at the labels, the fill word where a label is out of range. -/
def takeRows (w : FVec Ideal S8192x1024 .f32) (y : IVec S8192 32) : FVec Ideal S8192x1024 .f32 :=
  select (broadcastInDim S8192x1024 ![0] bcast_S8192_S8192x1024_0 (inRange (labelCol y)))
    (Host.gather gather_S8192x1024_S8192x1_S8192x1024_1_0_n_n_0_1_11024 w (labelCol y))
    (broadcastInDim S8192x1024 ![] bcast_S_S8192x1024 (constant (F := Ideal) S_ .f32 0x7FC00000#32))

/-- The entries of `n` taken at the labels, the fill word where a label is out of range. -/
def takeEntries (n : FVec Ideal S8192 .f32) (y : IVec S8192 32) : FVec Ideal S8192 .f32 :=
  select (inRange (labelCol y))
    (Host.gather gather_S8192_S8192x1_S8192_n_0_n_n_0_1_1 n (labelCol y))
    (broadcastInDim S8192 ![] bcast_S_S8192 (constant (F := Ideal) S_ .f32 0x7FC00000#32))

/-- The row sums of the entrywise product of two arrays, as a column. -/
def rowdot (x g : FVec Ideal S8192x1024 .f32) : FVec Ideal S8192x1 .f32 :=
  broadcastInDim S8192x1 ![0] bcast_S8192_S8192x1_0
    (Host.reduceAdd (mulf x g) (constant (F := Ideal) S_ .f32 0x00000000#32) reducesTo_S8192x1024_S8192_d1 h_S_)

/-- The squared row norms of an array (computed before the region). -/
def sqNorms (a : FVec Ideal S8192x1024 .f32) : FVec Ideal S8192 .f32 :=
  Host.reduceAdd (mulf a a) (constant (F := Ideal) S_ .f32 0x00000000#32) reducesTo_S8192x1024_S8192_d1 h_S_

/-- The mean square of an array's entries (computed before the region): the squared row norms summed, over the row
    count, over the feature count. -/
def meanSq (x : FVec Ideal S8192x1024 .f32) : FVec Ideal S_ .f32 :=
  Host.divf
    (Host.divf
      (Host.reduceAdd (broadcastInDim S8192x1 ![0] bcast_S8192_S8192x1_0 (sqNorms x))
        (constant (F := Ideal) S_ .f32 0x00000000#32) reducesTo_S8192x1_S_d0_1 h_S_)
      (constant (F := Ideal) S_ .f32 0x46000000#32))
    (constant (F := Ideal) S_ .f32 0x44800000#32)

/-- The closing arithmetic of the program, as one function of the region's result column `l`, the gathered inner
    products `d`, the gathered squared norms `n` and the mean square `q`. -/
def closing (l d : FVec Ideal S8192x1 .f32) (n : FVec Ideal S8192 .f32) (q : FVec Ideal S_ .f32) : FVec Ideal S_ .f32 :=
  addf
    (Host.divf
      (Host.reduceAdd
        (subf l
          (Host.divf
            (subf (mulf (broadcastInDim S8192x1 ![] bcast_S_S8192x1 (constant (F := Ideal) S_ .f32 0x40000000#32)) d)
              (shapeCast S8192x1 n shapeCasts_S8192_S8192x1))
            (broadcastInDim S8192x1 ![] bcast_S_S8192x1 (constant (F := Ideal) S_ .f32 0x44800000#32))))
        (constant (F := Ideal) S_ .f32 0x00000000#32) reducesTo_S8192x1_S_d0_1 h_S_)
      (constant (F := Ideal) S_ .f32 0x46000000#32))
    (mulf (constant (F := Ideal) S_ .f32 0x3DCCCCCD#32) q)

/-! ## The same functions read at an index, for labels in range and real arrays -/

section Eval
variable (y : IVec S8192 32) (hy : ∀ i, (y i).toNat < 8192)
include hy

theorem labelCol_apply (r : Fin 8192) (u : Fin 1) : labelCol y (ix2 r u) = y (ix1 r) := by
  unfold labelCol
  refine (bcast_axis0 _ _ r u).trans ?_
  show Scalar.select (IntOp.cmpi .slt (y (ix1 r)) 0#32) _ _ = _
  rw [label_not_neg (hy _), select_zero]

theorem labelCol_lt (j : S8192x1.Idx) : (labelCol y j).toNat < 8192 := by
  obtain ⟨p, q, rfl⟩ : ∃ (p : Fin 8192) (q : Fin 1), j = ix2 p q := ⟨j 0, j 1, eq_ix2 j⟩
  rw [labelCol_apply y hy]; exact hy _

theorem inRange_labelCol (r : S8192.Idx) : inRange (labelCol y) r = 1#1 := by
  unfold inRange
  refine reduce_andi_ones _ _ _ _ (fun j => ?_) (fun _ => rfl) r
  show IntOp.andi (IntOp.cmpi .sge (labelCol y j) 0#32) (IntOp.cmpi .sle (labelCol y j) 8191#32) = 1#1
  rw [label_ge_zero (labelCol_lt y hy j), label_le_last (labelCol_lt y hy j)]; rfl

theorem takeRows_apply (w : FVec Ideal S8192x1024 .f32) (r : Fin 8192) (f : Fin 1024) :
    takeRows w y (ix2 r f) = w (ix2 ⟨(y (ix1 r)).toNat, hy _⟩ f) := by
  unfold takeRows
  rw [select_apply]
  have hc : broadcastInDim S8192x1024 ![0] bcast_S8192_S8192x1024_0 (inRange (labelCol y)) (ix2 r f) = 1#1 :=
    (bcast_axis0 _ _ r f).trans (inRange_labelCol y hy _)
  rw [hc, select_one, gatherRows_at]
  refine congrArg w (congrArg (fun a => ix2 a f) (Fin.ext ?_))
  show min (labelCol y (ix2 r (0 : Fin 1))).toInt.toNat (8192 - 1) = (y (ix1 r)).toNat
  rw [labelCol_apply y hy]; exact label_clamp (hy _)

theorem takeEntries_apply (n : FVec Ideal S8192 .f32) (r : Fin 8192) :
    takeEntries n y (ix1 r) = n (ix1 ⟨(y (ix1 r)).toNat, hy _⟩) := by
  unfold takeEntries
  rw [select_apply, inRange_labelCol y hy, select_one, gatherEntries_at]
  refine congrArg n (congrArg ix1 (Fin.ext ?_))
  show min (labelCol y (ix2 r (0 : Fin 1))).toInt.toNat (8192 - 1) = (y (ix1 r)).toNat
  rw [labelCol_apply y hy]; exact label_clamp (hy _)

end Eval

theorem rowSum_zero (h' : (⟨2, ![8192, 1024]⟩ : Shape).ReducesTo [1] ⟨1, ![8192]⟩) {u : Shape} (hu : 0 < u.numel)
    (x : FVec Ideal ⟨2, ![8192, 1024]⟩ .f32) (r : Fin 8192) :
    Host.reduceAdd x (constant (F := Ideal) u .f32 0x00000000#32) h' hu (ix1 r) = ∑ f : Fin 1024, x (ix2 r f) := by
  refine (rowSum_apply h' hu x _ r).trans ?_
  show Ideal.ofBits .f32 0x00000000#32 + _ = _
  rw [Ideal.ofBits_zero_f32, zero_add]

theorem colSum_zero (h' : (⟨2, ![8192, 1]⟩ : Shape).ReducesTo [0, 1] ⟨0, ![]⟩) {u : Shape} (hu : 0 < u.numel)
    (x : FVec Ideal ⟨2, ![8192, 1]⟩ .f32) (j : (⟨0, ![]⟩ : Shape).Idx) :
    Host.reduceAdd x (constant (F := Ideal) u .f32 0x00000000#32) h' hu j = ∑ r : Fin 8192, x (ix2 r (0 : Fin 1)) := by
  refine (colSum_apply h' hu x _ j).trans ?_
  show Ideal.ofBits .f32 0x00000000#32 + _ = _
  rw [Ideal.ofBits_zero_f32, zero_add]

/-- The row sums of a product of two real arrays: the rows' inner products. -/
theorem rowdot_apply (x g : FVec Ideal S8192x1024 .f32) (A B : Fin 8192 → Fin 1024 → ℝ)
    (hx : ∀ r f, x (ix2 r f) = ((A r f : ℝ) : EReal)) (hg : ∀ r f, g (ix2 r f) = ((B r f : ℝ) : EReal)) (r : Fin 8192) (u : Fin 1) :
    rowdot x g (ix2 r u) = ((∑ f, A r f * B r f : ℝ) : EReal) := by
  unfold rowdot
  refine (bcast_axis0 _ _ r u).trans ?_
  rw [rowSum_zero, coe_sum]
  refine Finset.sum_congr rfl fun f _ => ?_
  show x (ix2 r f) * g (ix2 r f) = _
  rw [hx, hg, EReal.coe_mul]

/-- The squared row norms of a real array. -/
theorem sqNorms_apply (a : FVec Ideal S8192x1024 .f32) (A : Fin 8192 → Fin 1024 → ℝ)
    (ha : ∀ r f, a (ix2 r f) = ((A r f : ℝ) : EReal)) (r : Fin 8192) :
    sqNorms a (ix1 r) = ((LseSpec.sq A r : ℝ) : EReal) := by
  unfold sqNorms LseSpec.sq
  rw [rowSum_zero, coe_sum]
  refine Finset.sum_congr rfl fun f _ => ?_
  show a (ix2 r f) * a (ix2 r f) = _
  rw [ha, EReal.coe_mul]

/-- The mean square of a real array. -/
theorem meanSq_apply (x : FVec Ideal S8192x1024 .f32) (A : Fin 8192 → Fin 1024 → ℝ)
    (hx : ∀ r f, x (ix2 r f) = ((A r f : ℝ) : EReal)) (j : S_.Idx) :
    meanSq x j = ((LseSpec.avgSq A : ℝ) : EReal) := by
  unfold meanSq LseSpec.avgSq
  show Ideal.div (Ideal.div (Host.reduceAdd (F := Ideal) (φ := .f32) _ _ reducesTo_S8192x1_S_d0_1 h_S_ j) (Ideal.ofBits .f32 0x46000000#32))
    (Ideal.ofBits .f32 0x44800000#32) = _
  rw [colSum_zero, word_8192, word_1024]
  have hs : ∀ r : Fin 8192, broadcastInDim S8192x1 ![0] bcast_S8192_S8192x1_0 (sqNorms x) (ix2 r (0 : Fin 1))
      = ((LseSpec.sq A r : ℝ) : EReal) := fun r => (bcast_axis0 _ _ r 0).trans (sqNorms_apply x A hx r)
  rw [Finset.sum_congr rfl fun r _ => hs r, ← coe_sum, Ideal.div_coe (by norm_num), Ideal.div_coe (by norm_num),
    ← EReal.coe_mul, ← EReal.coe_mul]
  congr 1
  ring

/-- The closing arithmetic on real operands. -/
theorem closing_apply (l d : FVec Ideal S8192x1 .f32) (n : FVec Ideal S8192 .f32) (q : FVec Ideal S_ .f32)
    (L D N : Fin 8192 → ℝ) (Q : ℝ) (hl : ∀ r, l (ix2 r (0 : Fin 1)) = ((L r : ℝ) : EReal))
    (hd : ∀ r, d (ix2 r (0 : Fin 1)) = ((D r : ℝ) : EReal)) (hn : ∀ r, n (ix1 r) = ((N r : ℝ) : EReal))
    (hq : ∀ j, q j = ((Q : ℝ) : EReal)) (j : S_.Idx) :
    closing l d n q j = (((∑ r, (L r - (2 * D r - N r) * (1 / 1024))) / 8192 : ℝ) : EReal)
      + Ideal.ofBits .f32 0x3DCCCCCD#32 * ((Q : ℝ) : EReal) := by
  unfold closing
  show Ideal.div (Host.reduceAdd (F := Ideal) (φ := .f32) _ _ reducesTo_S8192x1_S_d0_1 h_S_ j) (Ideal.ofBits .f32 0x46000000#32)
    + Ideal.ofBits .f32 0x3DCCCCCD#32 * q j = _
  rw [hq, colSum_zero, word_8192]
  refine congrArg (· + _) ?_
  have ht : ∀ r : Fin 8192,
      subf l (Host.divf (subf (mulf (broadcastInDim S8192x1 ![] bcast_S_S8192x1 (constant (F := Ideal) S_ .f32 0x40000000#32)) d)
        (shapeCast S8192x1 n shapeCasts_S8192_S8192x1))
        (broadcastInDim S8192x1 ![] bcast_S_S8192x1 (constant (F := Ideal) S_ .f32 0x44800000#32))) (ix2 r (0 : Fin 1))
      = ((L r - (2 * D r - N r) * (1 / 1024) : ℝ) : EReal) := fun r => by
    show l (ix2 r (0 : Fin 1)) - Ideal.div (Ideal.ofBits .f32 0x40000000#32 * d (ix2 r (0 : Fin 1))
      - shapeCast S8192x1 n shapeCasts_S8192_S8192x1 (ix2 r (0 : Fin 1))) (Ideal.ofBits .f32 0x44800000#32) = _
    rw [shapeCast_a_a1_apply, hl, hd, hn, word_two, word_1024, ← EReal.coe_mul, ← EReal.coe_sub,
      Ideal.div_coe (by norm_num), ← EReal.coe_mul, ← EReal.coe_sub]
  rw [Finset.sum_congr rfl fun r _ => ht r, ← coe_sum, Ideal.div_coe (by norm_num), ← EReal.coe_mul]
  congr 1
  ring

/-! ## Reading the typed operations' ternary form -/

section TypedTernary
variable {τ' : Topo} {sig' : RefSig} {Val : EltTy → Type} {T Tc Ta Tb Ty : BufTy}
open Idealize.ShloMosaic.StableHlo Cert.TypedRead

/-- A typed three-operand operation's result at its own reference, at the reference's type. -/
theorem read_ternary (c : TRef sig' Tc) (a : TRef sig' Ta) (b : TRef sig' Tb) (y : TRef sig' Ty)
    (f : Tc.Contents Val → Ta.Contents Val → Tb.Contents Val → Ty.Contents Val) (V : Valuation τ' sig' Val) :
    TypedRead.read y ((no_index (TRef.ternary (τ := τ') c a b y f)).result V)
      = f (TypedRead.read c V) (TypedRead.read a V) (TypedRead.read b V) := by
  unfold TypedRead.read
  exact (congrArg y.ofBuf (ternary_result c.ref a.ref b.ref y.ref
    (fun w u v => y.toBuf (f (c.ofBuf w) (a.ofBuf u) (b.ofBuf v))) c.dev a.dev b.dev y.dev V)).trans (ofBuf_toBuf y _)

/-- … and at any other reference: what was there. -/
theorem read_ternary_ne (z : TRef sig' T) (c : TRef sig' Tc) (a : TRef sig' Ta) (b : TRef sig' Tb) (y : TRef sig' Ty)
    (f : Tc.Contents Val → Ta.Contents Val → Tb.Contents Val → Ty.Contents Val) (V : Valuation τ' sig' Val)
    (h : z.ref ≠ y.ref) :
    TypedRead.read z ((no_index (TRef.ternary (τ := τ') c a b y f)).result V) = TypedRead.read z V := by
  unfold TypedRead.read
  exact congrArg z.ofBuf (ternary_result_ne (c := c.ref) (a := a.ref) (b := b.ref) (y := y.ref)
    (fun w u v => y.toBuf (f (c.ofBuf w) (a.ofBuf u) (b.ofBuf v))) c.dev a.dev b.dev y.dev V h)
end TypedTernary

/-! ## Each stretch's result as that function of the contents it starts from -/

section Reads
open Cert.TypedRead

/-- The first take: `main_v12` is the rows of `main_arg1` taken at the labels `main_arg2`. -/
theorem takeRows_read (V : Valuation τ sig (Elt Ideal)) :
    (StableHlo.after (hostOps1 (F := Ideal)) V (Proc.devRef .tc main_v12) : S8192x1024.Idx → EReal)
      = takeRows (V (Proc.devRef .tc main_arg1)) (V (Proc.devRef .tc main_arg2)) := by
  show TypedRead.read (.of main_v12 : StableHlo.TRef sig ⟨S8192x1024, .f32⟩) (StableHlo.after hostOps1 V) = _
  simp only [hostOps1, StableHlo.after_cons, StableHlo.after_nil]
  simp (disch := decide) only [read_nullary, read_unary, read_binary, read_ternary, read_nullary_ne, read_unary_ne,
    read_binary_ne, read_ternary_ne]
  rfl

/-- The products' row sums: `main_v15` from `main_arg0` and `main_v12`. -/
theorem rowdot_read (V : Valuation τ sig (Elt Ideal)) :
    (StableHlo.after (hostOps1_1 (F := Ideal)) V (Proc.devRef .tc main_v15) : S8192x1.Idx → EReal)
      = rowdot (V (Proc.devRef .tc main_arg0)) (V (Proc.devRef .tc main_v12)) := by
  after_results
  rfl

/-- The second take: `main_v16` is the entries of `main_v4` taken at the labels. -/
theorem takeEntries_read (V : Valuation τ sig (Elt Ideal)) :
    (StableHlo.after (hostOps1_2 (F := Ideal)) V (Proc.devRef .tc main_v16) : S8192.Idx → EReal)
      = takeEntries (V (Proc.devRef .tc main_v4)) (V (Proc.devRef .tc main_arg2)) := by
  show TypedRead.read (.of main_v16 : StableHlo.TRef sig ⟨S8192, .f32⟩) (StableHlo.after hostOps1_2 V) = _
  simp only [hostOps1_2, StableHlo.after_cons, StableHlo.after_nil]
  simp (disch := decide) only [read_nullary, read_unary, read_binary, read_ternary, read_nullary_ne, read_unary_ne,
    read_binary_ne, read_ternary_ne]
  rfl

set_option maxHeartbeats 1000000 in
/-- The closing arithmetic: `main_v27` from the region's result, the two gathered quantities and the mean square. -/
theorem closing_read (V : Valuation τ sig (Elt Ideal)) :
    (StableHlo.after (hostOps1_3 (F := Ideal)) V (Proc.devRef .tc main_v27) : S_.Idx → EReal)
      = closing (V (Proc.devRef .tc main_v11)) (V (Proc.devRef .tc main_v15)) (V (Proc.devRef .tc main_v16))
          (V (Proc.devRef .tc main_v7)) := by
  after_results_simp
  rfl

end Reads

/-! ## What each stretch leaves alone: every buffer it does not write -/

theorem take_keeps (V : Valuation τ sig (Elt Ideal)) {r : Ref sig .tc}
    (hr : r ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v12]) :
    StableHlo.after (hostOps1 (F := Ideal)) V (Proc.devRef .tc r) = V (Proc.devRef .tc r) :=
  StableHlo.after_of_writes_sub _ V (by
    simp only [hostOps1, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

theorem rowdot_keeps (V : Valuation τ sig (Elt Ideal)) {r : Ref sig .tc}
    (hr : r ∉ [main_v13, main_cst_4, main_v14, main_v15]) :
    StableHlo.after (hostOps1_1 (F := Ideal)) V (Proc.devRef .tc r) = V (Proc.devRef .tc r) :=
  StableHlo.after_of_writes_sub _ V (by
    simp only [hostOps1_1, List.Forall, StableHlo.nullary_writes, StableHlo.unary_writes, StableHlo.binary_writes]
    repeat' apply And.intro
    all_goals exact Finset.singleton_subset_iff.mpr (List.mem_toFinset.mpr (List.mem_map_of_mem (by decide)))) hr

theorem takeEntries_keeps (V : Valuation τ sig (Elt Ideal)) {r : Ref sig .tc}
    (hr : r ∉ [main_call1_c, main_call1_v0, main_call1_v1, main_call1_c_0, main_call1_v2, main_call1_v3, main_call1_v4,
      main_call1_v5, main_call1_c_1, main_call1_c_2, main_call1_v6, main_call1_v7, main_call1_v8, main_call1_v9,
      main_call1_v10, main_call1_v11, main_call1_c_3, main_call1_v12, main_call1_v13, main_call1_cst, main_call1_v14,
      main_v16]) :
    StableHlo.after (hostOps1_2 (F := Ideal)) V (Proc.devRef .tc r) = V (Proc.devRef .tc r) :=
  StableHlo.after_of_writes_sub _ V (by
    simp only [hostOps1_2, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

/-- The four stretches in order, from any contents `A`: the result as one function of `A` at the region's result array,
    the three arguments and the two quantities computed before the region. -/
theorem tail_read (A : Valuation τ sig (Elt Ideal)) :
    (StableHlo.after (List.flatten (tailOps (F := Ideal))) A (Proc.devRef .tc main_v27) : S_.Idx → EReal)
      = closing (A (Proc.devRef .tc main_v11))
          (rowdot (A (Proc.devRef .tc main_arg0)) (takeRows (A (Proc.devRef .tc main_arg1)) (A (Proc.devRef .tc main_arg2))))
          (takeEntries (A (Proc.devRef .tc main_v4)) (A (Proc.devRef .tc main_arg2))) (A (Proc.devRef .tc main_v7)) := by
  simp only [tailOps, List.flatten_cons, List.flatten_nil, List.append_nil]
  rw [StableHlo.after_append, StableHlo.after_append, StableHlo.after_append, closing_read, takeEntries_read,
    takeEntries_keeps _ (r := main_v11) (by decide), takeEntries_keeps _ (r := main_v15) (by decide),
    takeEntries_keeps _ (r := main_v7) (by decide), rowdot_read,
    rowdot_keeps _ (r := main_v11) (by decide), rowdot_keeps _ (r := main_v7) (by decide),
    rowdot_keeps _ (r := main_v4) (by decide), rowdot_keeps _ (r := main_arg2) (by decide), takeRows_read,
    take_keeps _ (r := main_v11) (by decide), take_keeps _ (r := main_v7) (by decide),
    take_keeps _ (r := main_v4) (by decide), take_keeps _ (r := main_arg2) (by decide),
    take_keeps _ (r := main_arg0) (by decide)]

/-! ## The contents the later operations start from, and the result -/

section Assembly
variable (m : (ℓ : Loc nD τ sig) → Buf (Elt Ideal) ℓ) (c : Dev nD)

/-- What the region leaves: its four arrays at their final contents, every other buffer as the operations before the
    region left it. -/
abbrev exitVal : Valuation τ sig (Elt Ideal) :=
  Pipeline.withArrays spec0 c (V0 m c) (fun w => (dats m 0 c).arrAt w cfg0.N)

theorem exit_result : exitVal m c (Proc.devRef .tc main_v11) = (dats m 0 c).arrAt 3 cfg0.N :=
  Pipeline.withArrays_arr spec0 launch0.win.arr_inj c _ _ 3

theorem exit_arg0 : exitVal m c (Proc.devRef .tc main_arg0) = m ((c : Thread nD τ).loc main_arg0) :=
  (Pipeline.withArrays_of_ne spec0 c (V0 m c) _ main_arg0 (fun w => by fin_cases w <;> decide)).trans (V_main_arg0 m c)
theorem exit_arg1 : exitVal m c (Proc.devRef .tc main_arg1) = m ((c : Thread nD τ).loc main_arg1) :=
  (Pipeline.withArrays_of_ne spec0 c (V0 m c) _ main_arg1 (fun w => by fin_cases w <;> decide)).trans (V_main_arg1 m c)
theorem exit_arg2 : exitVal m c (Proc.devRef .tc main_arg2) = m ((c : Thread nD τ).loc main_arg2) :=
  (Pipeline.withArrays_of_ne spec0 c (V0 m c) _ main_arg2 (fun w => by fin_cases w <;> decide)).trans (V_main_arg2 m c)

/-- Before the region the host computed W's squared row norms into `main_v4` … -/
theorem exit_norms : (exitVal m c (Proc.devRef .tc main_v4) : S8192.Idx → EReal)
    = sqNorms (m ((c : Thread nD τ).loc main_arg1)) := by
  refine (Pipeline.withArrays_of_ne spec0 c (V0 m c) _ main_v4 (fun w => by fin_cases w <;> decide)).trans ?_
  show StableHlo.after hostOps0 (fun b => m (c, b)) (Proc.devRef .tc main_v4) = _
  after_results
  rfl

/-- … and X's mean square into `main_v7`. -/
theorem exit_meanSq : (exitVal m c (Proc.devRef .tc main_v7) : S_.Idx → EReal)
    = meanSq (m ((c : Thread nD τ).loc main_arg0)) := by
  refine (Pipeline.withArrays_of_ne spec0 c (V0 m c) _ main_v7 (fun w => by fin_cases w <;> decide)).trans ?_
  show StableHlo.after hostOps0 (fun b => m (c, b)) (Proc.devRef .tc main_v7) = _
  after_results
  rfl

end Assembly

end Tail

open Tail in
theorem tail_value (m : (ℓ : Loc nD τ sig) → Buf (Elt Ideal) ℓ) (c : Dev nD)
    (X W : Fin 8192 → Fin 1024 → ℝ) (yv : (⟨1, ![8192]⟩ : Shape).Idx → BitVec 32) (hy : ∀ i, (yv i).toNat < 8192)
    (hX : ∀ (r : Fin 8192) (f : Fin 1024), m ((c : Thread nD τ).loc main_arg0) (ix2 r f) = ((X r f : ℝ) : EReal))
    (hW : ∀ (k : Fin 8192) (f : Fin 1024), m ((c : Thread nD τ).loc main_arg1) (ix2 k f) = ((W k f : ℝ) : EReal))
    (hY : ∀ i, m ((c : Thread nD τ).loc main_arg2) i = yv i)
    (L : Fin 8192 → ℝ) (hL : ∀ r : Fin 8192, (dats m 0 c).arrAt 3 cfg0.N (ix2 r (0 : Fin 1)) = ((L r : ℝ) : EReal)) :
    Pipeline.afterTail₀ cfgs (dats m) 0 (V0 m) tailOps c main_v27
      = fun _ => (((∑ r, (L r - LseSpec.z X W r (LseSpec.labels yv hy r))) / 8192 : ℝ) : EReal)
          + Ideal.ofBits .f32 0x3DCCCCCD#32 * ((LseSpec.avgSq X : ℝ) : EReal) := by
  unfold Pipeline.afterTail₀
  refine (tail_read (exitVal m c)).trans ?_
  rw [exit_result m c, exit_arg0 m c, exit_arg1 m c, exit_norms m c, exit_meanSq m c, exit_arg2 m c,
    show (m ((c : Thread nD τ).loc main_arg2) : S8192.Idx → BitVec 32) = yv from funext hY]
  funext j
  refine closing_apply _ _ _ _ L (fun r => LseSpec.dot X W r (LseSpec.labels yv hy r))
    (fun r => LseSpec.sq W (LseSpec.labels yv hy r)) (LseSpec.avgSq X) hL (fun r => ?_) (fun r => ?_)
    (fun j => meanSq_apply _ X hX j) j
  · exact rowdot_apply _ _ X (fun r f => W (LseSpec.labels yv hy r) f) hX
      (fun r f => (takeRows_apply yv hy _ r f).trans (hW _ f)) r 0
  · exact (takeEntries_apply yv hy _ r).trans (sqNorms_apply _ W hW _)

end Cert.KernelIdeal.Lse

end
-- ==== Proof.RefValue.lean ====
/-
  The reference program's value, at the ideal instance, for real X and W and labels in range: it ends at the loss.
  The reference forms the full logits -(|x_r|^2 - 2 x_r.w_k + |w_k|^2) / 1024 = z r k - |x_r|^2 / 1024, takes a stable
  log-softmax along each row (subtract the row maximum, a real number; subtract the logarithm of the sum of the
  exponentials), gathers the entry at the row's label (in range, so the out-of-range fill is not selected), negates,
  averages over the rows, and adds the regularisation word times the mean of X's squared entries. Neither the row
  maximum nor the row's shift |x_r|^2 / 1024 survives: minus the log-softmax at the label is
  log (sum_k exp (z r k)) - z r (y r).
-/
import proofs.«429192_j76416058131339_3_alg».proof.Proof.RefRead
import proofs.«429192_j76416058131339_3_alg».proof.Proof.RefRun
import proofs.«429192_j76416058131339_3_alg».proof.Proof.LseSpec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## The reference's stages over real matrices -/

/-- The full logit of row `r` against class `k`: minus the mean squared distance, in the order the reference computes
    it. -/
def logit (X W : Fin 8192 → Fin 1024 → ℝ) (r k : Fin 8192) : ℝ :=
  -(LseSpec.sq X r - 2 * LseSpec.dot X W r k + LseSpec.sq W k) * (1 / 1024)

/-- The full logit is the shifted logit minus the row's own term. -/
theorem logit_eq (X W : Fin 8192 → Fin 1024 → ℝ) (r k : Fin 8192) :
    logit X W r k = LseSpec.z X W r k - LseSpec.sq X r * (1 / 1024) := by
  unfold logit LseSpec.z; ring

/-- The stable log-softmax of a row against a reference point `μ`. -/
def logp (X W : Fin 8192 → Fin 1024 → ℝ) (μ : ℝ) (r k : Fin 8192) : ℝ :=
  (logit X W r k - μ) - Real.log (∑ k', Real.exp (logit X W r k' - μ))

/-- Minus the log-softmax at a class is the row's log-sum-exp of the shifted logits minus that class's shifted logit:
    neither the reference point nor the row's own term survives. -/
theorem neg_logp (X W : Fin 8192 → Fin 1024 → ℝ) (μ : ℝ) (r k : Fin 8192) :
    -(logp X W μ r k) = LseSpec.lse X W r - LseSpec.z X W r k := by
  unfold logp
  have h : ∑ k', Real.exp (logit X W r k' - μ)
      = ∑ k' ∈ Finset.univ, Real.exp (LseSpec.z X W r k' - (LseSpec.sq X r * (1 / 1024) + μ)) := by
    refine Finset.sum_congr rfl fun k' _ => ?_
    rw [logit_eq]; congr 1; ring
  rw [h, LseSpec.log_sum_exp_sub Finset.univ ⟨0, Finset.mem_univ _⟩, logit_eq]
  unfold LseSpec.lse; ring

/-- The sum of all squared entries over the entry count is the mean over rows of the squared norms over the feature
    count. -/
theorem mean_sq (X : Fin 8192 → Fin 1024 → ℝ) :
    (∑ r, ∑ f, X r f * X r f) * (1 / 8388608) = LseSpec.avgSq X := by
  unfold LseSpec.avgSq LseSpec.sq; ring

/-- The real numbers' sum, cast to the extended reals, is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A rank-1 index is its one coordinate: a sum over the indices is the sum over the coordinate. -/
theorem sum_idx1 {M : Type} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]; rfl

/-- The maximum of finitely many real numbers, at least one, taken from minus infinity, is a real number. -/
theorem fold_max_real {ι : Type} (s : Finset ι) (hs : s.Nonempty) (g : ι → ℝ) :
    ∃ μ : ℝ, s.fold max (⊥ : EReal) (fun k => ((g k : ℝ) : EReal)) = (μ : EReal) := by
  classical
  induction s using Finset.induction_on with
  | empty => exact absurd hs (by simp)
  | insert a s ha ih =>
    rw [Finset.fold_insert ha]
    rcases s.eq_empty_or_nonempty with rfl | hne
    · exact ⟨g a, by simp⟩
    · obtain ⟨μ, hμ⟩ := ih hne
      exact ⟨max (g a) μ, by rw [hμ]; exact (EReal.coe_strictMono.monotone.map_max).symm⟩

/-! ## The float words the reference names, as extended reals -/

theorem ofBits_two : Ideal.ofBits .f32 0x40000000#32 = ((2 : ℝ) : EReal) := by
  simp [Ideal.ofBits, Ideal.ieee, -EReal.coe_mul] <;> norm_num
theorem ofBits_1024 : Ideal.ofBits .f32 0x44800000#32 = ((1024 : ℝ) : EReal) := by
  simp [Ideal.ofBits, Ideal.ieee, -EReal.coe_mul] <;> norm_num
theorem ofBits_8192 : Ideal.ofBits .f32 0x46000000#32 = ((8192 : ℝ) : EReal) := by
  simp [Ideal.ofBits, Ideal.ieee, -EReal.coe_mul] <;> norm_num
theorem ofBits_8388608 : Ideal.ofBits .f32 0x4B000000#32 = ((8388608 : ℝ) : EReal) := by
  simp [Ideal.ofBits, Ideal.ieee, -EReal.coe_mul] <;> norm_num
theorem ofBits_neg_inf : Ideal.ofBits .f32 0xFF800000#32 = ⊥ := by
  simp [Ideal.ofBits, Ideal.ieee]

/-! ## The reference's index maps at coordinates -/

theorem idx_v4 (r : Fin 8192) (f : Fin 1024) : idx_main_v4 (ix1 r) f = ix2 r f :=
  funext fun a => Fin.ext (by match a with | ⟨0, _⟩ => rfl | ⟨1, _⟩ => rfl)
theorem idx_v7 (k : Fin 8192) (f : Fin 1024) : idx_main_v7 (ix1 k) f = ix2 k f :=
  funext fun a => Fin.ext (by match a with | ⟨0, _⟩ => rfl | ⟨1, _⟩ => rfl)
theorem lidx_v8 (r k : Fin 8192) (f : Fin 1024) : lidx_main_v8 (ix2 r k) f = ix2 r f :=
  funext fun a => Fin.ext (by match a with | ⟨0, _⟩ => rfl | ⟨1, _⟩ => rfl)
theorem ridx_v8 (r k : Fin 8192) (f : Fin 1024) : ridx_main_v8 (ix2 r k) f = ix2 k f :=
  funext fun a => Fin.ext (by match a with | ⟨0, _⟩ => rfl | ⟨1, _⟩ => rfl)
theorem idx_v11 (r k : Fin 8192) : idx_main_v11 (ix2 r k) = ix2 r (0 : Fin 1) :=
  funext fun a => Fin.ext (by match a with | ⟨0, _⟩ => rfl | ⟨1, _⟩ => rfl)
theorem idx_v5 (r : Fin 8192) : idx_main_v5 (ix2 r (0 : Fin 1)) = ix1 r :=
  funext fun a => Fin.ext (by match a with | ⟨0, _⟩ => rfl)
theorem idx_v14 (r k : Fin 8192) : idx_main_v14 (ix2 r k) = ix2 (0 : Fin 1) k :=
  funext fun a => Fin.ext (by match a with | ⟨0, _⟩ => rfl | ⟨1, _⟩ => rfl)
theorem idx_v13 (k : Fin 8192) : idx_main_v13 (ix2 (0 : Fin 1) k) = ix1 k :=
  funext fun a => Fin.ext (by match a with | ⟨0, _⟩ => rfl)
theorem idx_c0v4 (r k : Fin 8192) : idx_main_call0_v4 (ix2 r k) = ix2 r (0 : Fin 1) :=
  funext fun a => Fin.ext (by match a with | ⟨0, _⟩ => rfl | ⟨1, _⟩ => rfl)
theorem idx_c0v3 (r : Fin 8192) : idx_main_call0_v3 (ix2 r (0 : Fin 1)) = ix1 r :=
  funext fun a => Fin.ext (by match a with | ⟨0, _⟩ => rfl)
theorem idx_c0v7 (r k : Fin 8192) : idx_main_call0_v7 (ix1 r) k = ix2 r k :=
  funext fun a => Fin.ext (by match a with | ⟨0, _⟩ => rfl | ⟨1, _⟩ => rfl)
theorem idx_c0v10 (r k : Fin 8192) : idx_main_call0_v10 (ix2 r k) = ix2 r (0 : Fin 1) :=
  funext fun a => Fin.ext (by match a with | ⟨0, _⟩ => rfl | ⟨1, _⟩ => rfl)
theorem idx_c0v8 (r : Fin 8192) : idx_main_call0_v8 (ix2 r (0 : Fin 1)) = ix1 r :=
  funext fun a => Fin.ext (by match a with | ⟨0, _⟩ => rfl)
theorem idx_v22 (r : Fin 8192) : idx_main_v22 (ix1 r) = ix2 r (0 : Fin 1) :=
  funext fun a => Fin.ext (by match a with | ⟨0, _⟩ => exact Nat.div_one _ | ⟨1, _⟩ => rfl)
theorem idx_v20 (r : Fin 8192) : idx_main_v20 (ix2 r (0 : Fin 1)) = ix1 r :=
  funext fun a => Fin.ext (by match a with | ⟨0, _⟩ => rfl)
theorem idx_c1v5 (r : Fin 8192) : idx_main_call1_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)

/-! ## The logits -/

section Stages

variable {x0 x1 : (⟨S8192x1024, .f32⟩ : BufTy).Contents (Elt Ideal)} {X W : Fin 8192 → Fin 1024 → ℝ}

/-- A row's squared norm, as the reference sums it. -/
theorem sqX_at (hx0 : ∀ r f, x0 (ix2 r f) = ((X r f : ℝ) : EReal)) (r : Fin 8192) :
    val_main_v4 (F := Ideal) x0 (ix1 r) = ((LseSpec.sq X r : ℝ) : EReal) := by
  rw [val_main_v4_apply, val_main_cst_1_apply]
  simp only [val_main_v3_apply, idx_v4, hx0, Ideal.ofBits_def, Ideal.mulf_def, Ideal.ofBits_zero_f32, zero_add, ← EReal.coe_mul]
  rw [← coe_sum]; rfl

/-- A class's squared norm. -/
theorem sqW_at (hx1 : ∀ k f, x1 (ix2 k f) = ((W k f : ℝ) : EReal)) (k : Fin 8192) :
    val_main_v7 (F := Ideal) x1 (ix1 k) = ((LseSpec.sq W k : ℝ) : EReal) := by
  rw [val_main_v7_apply, val_main_cst_2_apply]
  simp only [val_main_v6_apply, idx_v7, hx1, Ideal.ofBits_def, Ideal.mulf_def, Ideal.ofBits_zero_f32, zero_add, ← EReal.coe_mul]
  rw [← coe_sum]; rfl

/-- The inner product of a row with a class. -/
theorem dot_at (hx0 : ∀ r f, x0 (ix2 r f) = ((X r f : ℝ) : EReal)) (hx1 : ∀ k f, x1 (ix2 k f) = ((W k f : ℝ) : EReal))
    (r k : Fin 8192) : val_main_v8 (F := Ideal) x0 x1 (ix2 r k) = ((LseSpec.dot X W r k : ℝ) : EReal) := by
  rw [val_main_v8_apply]
  simp only [lidx_v8, ridx_v8, hx0, hx1, ← EReal.coe_mul]
  rw [← coe_sum]; rfl

/-- The full logit. -/
theorem logit_at (hx0 : ∀ r f, x0 (ix2 r f) = ((X r f : ℝ) : EReal)) (hx1 : ∀ k f, x1 (ix2 k f) = ((W k f : ℝ) : EReal))
    (r k : Fin 8192) : val_main_v18 (F := Ideal) x0 x1 (ix2 r k) = ((logit X W r k : ℝ) : EReal) := by
  rw [val_main_v18_apply, val_main_v16_apply, val_main_v15_apply, val_main_v12_apply, val_main_v11_apply, val_main_v5_apply,
    val_main_v10_apply, val_main_v9_apply, val_main_cst_3_apply, val_main_v14_apply, val_main_v13_apply,
    val_main_v17_apply, val_main_cst_4_apply, idx_v11, idx_v5, idx_v14, idx_v13, sqX_at hx0, sqW_at hx1, dot_at hx0 hx1]
  simp only [Ideal.ofBits_def, Ideal.hostDivf_def, Ideal.hostNegf_def, Ideal.negf_def, Ideal.addf_def, Ideal.subf_def,
    Ideal.mulf_def, ofBits_two, ofBits_1024]
  rw [Ideal.div_coe (by norm_num : (1024 : ℝ) ≠ 0), ← EReal.coe_mul, ← EReal.coe_sub, ← EReal.coe_add, ← EReal.coe_neg,
    ← EReal.coe_mul]
  rfl

end Stages

/-! ## The stable log-softmax -/

section Softmax

variable {x0 x1 : (⟨S8192x1024, .f32⟩ : BufTy).Contents (Elt Ideal)} {X W : Fin 8192 → Fin 1024 → ℝ}

/-- The row maximum the log-softmax subtracts is a real number: the maximum, from minus infinity, of the row's 8192
    real logits. Its value is never needed. -/
theorem rowmax_real (hx0 : ∀ r f, x0 (ix2 r f) = ((X r f : ℝ) : EReal)) (hx1 : ∀ k f, x1 (ix2 k f) = ((W k f : ℝ) : EReal))
    (r : Fin 8192) : ∃ μ : ℝ, val_main_call0_v2 (F := Ideal) x0 x1 (ix1 r) = (μ : EReal) := by
  obtain ⟨μ, hμ⟩ := fold_max_real (Finset.univ : Finset (Fin 8192)) ⟨0, Finset.mem_univ _⟩ (fun k => logit X W r k)
  refine ⟨μ, ?_⟩
  rw [val_main_call0_v2_apply, val_main_call0_v1_apply, val_main_call0_cst_0_apply]
  unfold val_main_call0_v0
  rw [Host.reduce_eq_fold_single FloatOps.maximumf _ _ reducesTo_S8192x8192_S8192_d1 (by decide) h_S_ (ix1 r),
    val_main_call0_cst_apply]
  simp only [Ideal.ofBits_def, Ideal.maximumf_def, ofBits_neg_inf]
  rw [max_eq_right bot_le, ← hμ]
  refine Finset.fold_congr fun k _ => ?_
  show val_main_v18 (F := Ideal) x0 x1 _ = _
  rw [← logit_at hx0 hx1 r k]
  exact congrArg _ (funext fun a => Fin.ext (by match a with | ⟨0, _⟩ => rfl | ⟨1, _⟩ => rfl))

/-- The logit less the row maximum. -/
theorem shifted_at (hx0 : ∀ r f, x0 (ix2 r f) = ((X r f : ℝ) : EReal)) (hx1 : ∀ k f, x1 (ix2 k f) = ((W k f : ℝ) : EReal))
    (r : Fin 8192) (μ : ℝ) (hμ : val_main_call0_v2 (F := Ideal) x0 x1 (ix1 r) = (μ : EReal)) (k : Fin 8192) :
    val_main_call0_v5 (F := Ideal) x0 x1 (ix2 r k) = ((logit X W r k - μ : ℝ) : EReal) := by
  rw [val_main_call0_v5_apply, val_main_call0_v4_apply, val_main_call0_v3_apply, idx_c0v4, idx_c0v3, hμ, logit_at hx0 hx1,
    Ideal.subf_def, ← EReal.coe_sub]

/-- The row's sum of exponentials of the shifted logits. -/
theorem sumexp_at (hx0 : ∀ r f, x0 (ix2 r f) = ((X r f : ℝ) : EReal)) (hx1 : ∀ k f, x1 (ix2 k f) = ((W k f : ℝ) : EReal))
    (r : Fin 8192) (μ : ℝ) (hμ : val_main_call0_v2 (F := Ideal) x0 x1 (ix1 r) = (μ : EReal)) :
    val_main_call0_v7 (F := Ideal) x0 x1 (ix1 r) = ((∑ k, Real.exp (logit X W r k - μ) : ℝ) : EReal) := by
  rw [val_main_call0_v7_apply, val_main_call0_cst_1_apply]
  simp only [val_main_call0_v6_apply, idx_c0v7, shifted_at hx0 hx1 r μ hμ, Ideal.ofBits_def, Ideal.ofBits_zero_f32, zero_add,
    Ideal.hostUnary_exp_def, Ideal.exp_coe]
  rw [← coe_sum]

/-- The log-softmax at a class. -/
theorem logp_at (hx0 : ∀ r f, x0 (ix2 r f) = ((X r f : ℝ) : EReal)) (hx1 : ∀ k f, x1 (ix2 k f) = ((W k f : ℝ) : EReal))
    (r : Fin 8192) (μ : ℝ) (hμ : val_main_call0_v2 (F := Ideal) x0 x1 (ix1 r) = (μ : EReal)) (k : Fin 8192) :
    val_main_v19 (F := Ideal) x0 x1 (ix2 r k) = ((logp X W μ r k : ℝ) : EReal) := by
  have hpos : 0 < ∑ k', Real.exp (logit X W r k' - μ) :=
    Finset.sum_pos (fun k' _ => Real.exp_pos _) ⟨0, Finset.mem_univ _⟩
  rw [val_main_v19_apply, val_main_call0_v10_apply, val_main_call0_v9_apply, val_main_call0_v8_apply, idx_c0v10, idx_c0v8,
    shifted_at hx0 hx1 r μ hμ, sumexp_at hx0 hx1 r μ hμ, Ideal.hostUnary_log_def, Ideal.log_coe, if_neg (not_le.mpr hpos),
    Ideal.subf_def, ← EReal.coe_sub]
  rfl

end Softmax

/-! ## The gather at the label -/

section Gather

open Idealize.ShloMosaic.StableHlo.Predicate

variable {x0 x1 : (⟨S8192x1024, .f32⟩ : BufTy).Contents (Elt Ideal)} {x2 : (⟨S8192, .i32⟩ : BufTy).Contents (Elt Ideal)}
  {X W : Fin 8192 → Fin 1024 → ℝ} {yv : (⟨1, ![8192]⟩ : Shape).Idx → BitVec 32}

/-- A conjunction of ones, from one, is one. -/
theorem foldl_andi_ones {ι : Type} (g : ι → BitVec 1) (hg : ∀ n, g n = 1#1) (l : List ι) :
    l.foldl (fun r n => IntOp.andi r (g n)) 1#1 = 1#1 := by
  induction l with
  | nil => rfl
  | cons n l ih => rw [List.foldl_cons, hg, show IntOp.andi 1#1 1#1 = (1#1 : BitVec 1) from by decide]; exact ih

theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  unfold Host.reduce
  rw [hinit]
  exact foldl_andi_ones (fun n => x (s.rowMajor.symm n)) (fun n => hx _) _

/-- The gather along the class axis, batched over the rows: row `r`'s entry is the operand's at row `r` and the class
    the start index names, read signed and clamped into the class range. -/
theorem gather_at (x : S8192x8192.Idx → EReal) (idx : IVec S8192x1x1 32) (r : Fin 8192) :
    Host.gather gather_S8192x8192_S8192x1x1_S8192x1_n_1_0_0_1_2_11 x idx (ix2 r (0 : Fin 1))
      = x (ix2 r ⟨min (idx (ix3 r (0 : Fin 1) (0 : Fin 1))).toInt.toNat 8191, by omega⟩) := by
  unfold Host.gather
  refine congrArg x (funext fun a => Fin.ext ?_)
  match a with
  | ⟨0, _⟩ =>
    show GatherDims.start gather_S8192x8192_S8192x1x1_S8192x1_n_1_0_0_1_2_11 (ix2 r (0 : Fin 1)) idx 0
        + GatherDims.batchCoord gather_S8192x8192_S8192x1x1_S8192x1_n_1_0_0_1_2_11 (ix2 r (0 : Fin 1)) 0
        + GatherDims.offCoord gather_S8192x8192_S8192x1x1_S8192x1_n_1_0_0_1_2_11 (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S8192x8192.rank) ∈ gather_S8192x8192_S8192x1x1_S8192x1_n_1_0_0_1_2_11.operandBatchingDims from
      List.mem_singleton.mpr rfl)]
    simp only [Nat.zero_add, Nat.add_zero]
    rfl
  | ⟨1, _⟩ =>
    show GatherDims.start gather_S8192x8192_S8192x1x1_S8192x1_n_1_0_0_1_2_11 (ix2 r (0 : Fin 1)) idx 1
        + GatherDims.batchCoord gather_S8192x8192_S8192x1x1_S8192x1_n_1_0_0_1_2_11 (ix2 r (0 : Fin 1)) 1
        + GatherDims.offCoord gather_S8192x8192_S8192x1x1_S8192x1_n_1_0_0_1_2_11 (ix2 r (0 : Fin 1)) 1
      = min (idx (ix3 r (0 : Fin 1) (0 : Fin 1))).toInt.toNat 8191
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin S8192x8192.rank) ∈ gather_S8192x8192_S8192x1x1_S8192x1_n_1_0_0_1_2_11.startIndexMap from
      List.mem_singleton.mpr rfl)]
    have hsi : GatherDims.siIdx gather_S8192x8192_S8192x1x1_S8192x1_n_1_0_0_1_2_11 (ix2 r (0 : Fin 1))
        ⟨List.idxOf (1 : Fin S8192x8192.rank) gather_S8192x8192_S8192x1x1_S8192x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
/-- The start index of row `r`: its label (not negative, so the wrap-around of negative indices leaves it). -/
theorem start_at (hx2 : ∀ i, x2 i = yv i) (hy : ∀ i, (yv i).toNat < 8192) (r : Fin 8192) :
    val_main_call1_v5 (F := Ideal) x2 (ix3 r (0 : Fin 1) (0 : Fin 1)) = yv (ix1 r) := by
  have hlt : IntOp.cmpi .slt (yv (ix1 r)) 0#32 = 0#1 :=
    eq_zero_of_ne_one fun h =>
      absurd ((slt_iff_toNat (by have := hy (ix1 r); omega) (by decide)).mp h) (by simp)
  rw [val_main_call1_v5_apply, idx_c1v5, val_main_call1_v4_apply, val_main_call1_v1_apply, val_main_v20_apply, idx_v20,
    val_main_call1_v0_apply, val_main_call1_c_apply, hx2, hlt, select_zero]

/-- Every start index is in the class range. -/
theorem inrange_at (hx2 : ∀ i, x2 i = yv i) (hy : ∀ i, (yv i).toNat < 8192) (i : S8192x1x1.Idx) :
    val_main_call1_v11 (F := Ideal) x2 i = 1#1 := by
  obtain ⟨r, a, b, rfl⟩ : ∃ (r : Fin 8192) (a b : Fin 1), i = ix3 r a b := ⟨i 0, i 1, i 2, eq_ix3 i⟩
  obtain rfl : a = 0 := Subsingleton.elim _ _
  obtain rfl : b = 0 := Subsingleton.elim _ _
  have hge : IntOp.cmpi .sge (yv (ix1 r)) 0#32 = 1#1 :=
    (sge_iff_toNat (by have := hy (ix1 r); omega) (by decide)).mpr (by simp)
  have hle : IntOp.cmpi .sle (yv (ix1 r)) 8191#32 = 1#1 :=
    (sle_iff_toNat (by have := hy (ix1 r); omega) (by decide)).mpr (by have := hy (ix1 r); show _ ≤ 8191; omega)
  rw [val_main_call1_v11_apply, val_main_call1_v7_apply, val_main_call1_v10_apply, start_at hx2 hy,
    val_main_call1_v6_apply, val_main_call1_c_2_apply, val_main_call1_v9_apply, val_main_call1_v8_apply,
    val_main_call1_c_1_apply, hge, hle]
  decide

/-- What the reference takes along the class axis at row `r` is the log-softmax at the row's label: the in-range mask
    is all ones, so the fill is not selected, and the clamp leaves an in-range label where it is. -/
theorem picked_at (hx2 : ∀ i, x2 i = yv i) (hy : ∀ i, (yv i).toNat < 8192) (r : Fin 8192) :
    val_main_v21 (F := Ideal) x0 x1 x2 (ix2 r (0 : Fin 1))
      = val_main_v19 (F := Ideal) x0 x1 (ix2 r (LseSpec.labels yv hy r)) := by
  have hmask : val_main_call1_v12 (F := Ideal) x2 (ix2 r (0 : Fin 1)) = 1#1 := by
    unfold val_main_call1_v12
    exact reduce_andi_ones _ _ _ _ (fun i => val_main_call1_c_3_apply i) (inrange_at hx2 hy) _
  rw [val_main_v21_apply, hmask, select_one]
  unfold val_main_call1_v13
  rw [gather_at]
  refine congrArg (fun q => val_main_v19 (F := Ideal) x0 x1 (ix2 r q)) (Fin.ext ?_)
  show min (val_main_call1_v5 (F := Ideal) x2 (ix3 r (0 : Fin 1) (0 : Fin 1))).toInt.toNat 8191 = (yv (ix1 r)).toNat
  rw [start_at hx2 hy, toInt_eq_toNat_of_lt (by have := hy (ix1 r); omega), Int.toNat_natCast]
  have := hy (ix1 r); omega

end Gather

/-! ## The loss -/

/-- The reference's result, over real matrices and in-range labels, is the loss. -/
theorem value_eq {x0 x1 : (⟨S8192x1024, .f32⟩ : BufTy).Contents (Elt Ideal)} {x2 : (⟨S8192, .i32⟩ : BufTy).Contents (Elt Ideal)}
    {X W : Fin 8192 → Fin 1024 → ℝ} (hx0 : ∀ r f, x0 (ix2 r f) = ((X r f : ℝ) : EReal))
    (hx1 : ∀ k f, x1 (ix2 k f) = ((W k f : ℝ) : EReal)) (yv : (⟨1, ![8192]⟩ : Shape).Idx → BitVec 32)
    (hy : ∀ i, (yv i).toNat < 8192) (hx2 : ∀ i, x2 i = yv i) :
    val_main_v27 (F := Ideal) x0 x1 x2 = fun _ => LseSpec.loss X W (LseSpec.labels yv hy) := by
  choose μ hμ using rowmax_real hx0 hx1
  funext i
  have hnll : val_main_v25 (F := Ideal) x0 x1 x2 i
      = (((∑ r, LseSpec.nll X W (LseSpec.labels yv hy) r) / 8192 : ℝ) : EReal) := by
    rw [val_main_v25_apply, val_main_v24_apply, val_main_cst_5_apply, val_main_cst_6_apply, sum_idx1]
    simp only [val_main_v23_apply, val_main_v22_apply, idx_v22, picked_at hx2 hy, fun r => logp_at hx0 hx1 r (μ r) (hμ r),
      Ideal.ofBits_def, Ideal.ofBits_zero_f32, zero_add, Ideal.hostNegf_def, Ideal.negf_def, Ideal.hostDivf_def, ofBits_8192,
      ← EReal.coe_neg, neg_logp]
    rw [← coe_sum, Ideal.div_coe (by norm_num : (8192 : ℝ) ≠ 0), ← EReal.coe_mul]
    unfold LseSpec.nll
    congr 1; ring
  have hreg : val_main_v2 (F := Ideal) x0 i = ((LseSpec.avgSq X : ℝ) : EReal) := by
    rw [val_main_v2_apply, val_main_v1_apply, val_main_cst_apply, val_main_cst_0_apply, sum_idx2]
    simp only [val_main_v0_apply, hx0, Ideal.ofBits_def, Ideal.ofBits_zero_f32, zero_add, Ideal.mulf_def, Ideal.hostDivf_def,
      ofBits_8388608, ← EReal.coe_mul, ← coe_sum]
    rw [Ideal.div_coe (by norm_num : (8388608 : ℝ) ≠ 0), ← EReal.coe_mul, mean_sq]
  rw [val_main_v27_apply, val_main_v26_apply, val_main_cst_7_apply, hnll, hreg]
  rfl

/-- Every weakly fair execution of the reference from real X and W and in-range labels ends with the loss in its result
    buffer and its arguments unchanged. -/
theorem run_value (m' : (ℓ : Loc nD τ sig) → Buf (Elt Ideal) ℓ) (ρ' : Dev nD → PrngReg)
    (X W : Dev nD → Fin 8192 → Fin 1024 → ℝ) (yv : Dev nD → (⟨1, ![8192]⟩ : Shape).Idx → BitVec 32)
    (hy : ∀ c i, (yv c i).toNat < 8192)
    (hX : ∀ (c : Dev nD) (r : Fin 8192) (f : Fin 1024), m' ((c.tc : Thread nD τ).loc main_arg0) (ix2 r f) = ((X c r f : ℝ) : EReal))
    (hW : ∀ (c : Dev nD) (k : Fin 8192) (f : Fin 1024), m' ((c.tc : Thread nD τ).loc main_arg1) (ix2 k f) = ((W c k f : ℝ) : EReal))
    (hY : ∀ (c : Dev nD) i, m' ((c.tc : Thread nD τ).loc main_arg2) i = yv c i) :
    θ_run (defs (F := Ideal)) (onTc (τ := τ) (main (F := Ideal))) ⟨m', fun _ => 0, ρ'⟩ (fun r => ∀ c : Dev nD,
      r.2.mem ((c.tc : Thread nD τ).loc main_v27) = (fun _ => LseSpec.loss (X c) (W c) (LseSpec.labels (yv c) (hy c)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) := by
  refine (θ_run (defs (F := Ideal)) _ _).mono (fun r h c => ⟨?_, (h c).2⟩) (Cert.ReferenceIdeal.Value.run (F := Ideal) m' ρ')
  rw [(h c).1, val_main_v27_eq]
  exact value_eq (hX c) (hW c) (yv c) (hy c) (hY c)

end Cert.ReferenceIdeal.RefValue

end
-- ==== Proof.PreDecode.lean ====
/-
  What the precondition says, decoded at the ideal instance: every entry of X and of W is a real number (its absolute
  value is below plus infinity), and every label, as a signed 32-bit word, is at least 0 and below 8192, so its
  unsigned value is below 8192.
-/
import proofs.«429192_j76416058131339_3_alg».proof.Pre_finite_inputs
import proofs.«429192_j76416058131339_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx
open Cert.Pre_finite_inputs

/-- A rank-0 shape has one index. -/
instance : Subsingleton Cert.Pre_finite_inputs.S_.Idx := ⟨fun a b => funext fun d => d.elim0⟩

/-- An extended real whose absolute value compares below plus infinity is a real number. -/
theorem real_of_abs_lt_top (x : EReal)
    (e : FloatOps.cmpf (F := Ideal) (φ := .f32) .olt (max x (-x)) (Ideal.ofBits .f32 0x7F800000#32) = 1#1) :
    ∃ v : ℝ, x = (v : EReal) := by
  have htop : Ideal.ofBits .f32 0x7F800000#32 = (⊤ : EReal) := by simp [Ideal.ofBits, Ideal.ieee]
  rw [htop, Ideal.cmpf_def] at e
  induction x using EReal.rec with
  | bot => exact absurd e (by simp [Ideal.cmp])
  | coe v => exact ⟨v, rfl⟩
  | top => exact absurd e (by simp [Ideal.cmp])

/-- A 32-bit word that is at least 0 and below 8192 as a signed number is below 8192 as an unsigned one. -/
theorem toNat_lt_of_signed (w : BitVec 32) (h0 : (0#32).toInt ≤ w.toInt) (h1 : w.toInt < (8192#32).toInt) : w.toNat < 8192 := by
  have e0 : (0#32 : BitVec 32).toInt = 0 := by decide
  have e1 : (8192#32 : BitVec 32).toInt = 8192 := by decide
  rw [e0] at h0; rw [e1] at h1
  rw [BitVec.toInt_eq_toNat_cond] at h0 h1
  have := w.isLt
  split at h0 <;> omega

theorem of_pre [Cert.Pre_finite_inputs.Facts]
    (x0 x1 : FVec Ideal Cert.Pre_finite_inputs.S8192x1024 .f32) (yv : IVec Cert.Pre_finite_inputs.S8192 32)
    (h : Cert.Pre_finite_inputs.fn (F := Ideal) x0 x1 yv = fun _ => 1#1) :
    (∃ X : Fin 8192 → Fin 1024 → ℝ, ∀ (r : Fin 8192) (f : Fin 1024), x0 (ix2 r f) = ((X r f : ℝ) : EReal))
    ∧ (∃ W : Fin 8192 → Fin 1024 → ℝ, ∀ (k : Fin 8192) (f : Fin 1024), x1 (ix2 k f) = ((W k f : ℝ) : EReal))
    ∧ ∀ i, (yv i).toNat < 8192 := by
  have h0 := congrFun h ix0
  dsimp only [Cert.Pre_finite_inputs.fn] at h0
  obtain ⟨h01, hy⟩ := IntOp.andi_eq_one.1 h0
  obtain ⟨hx, hw⟩ := IntOp.andi_eq_one.1 h01
  have hx' := fun i => Host.reduce_andi_all _ _ _ _ ix0 hx i
  have hw' := fun i => Host.reduce_andi_all _ _ _ _ ix0 hw i
  have hy' := fun i => Host.reduce_andi_all _ _ _ _ ix0 hy i
  refine ⟨?_, ?_, ?_⟩
  · have hr : ∀ (r : Fin 8192) (f : Fin 1024), ∃ v : ℝ, x0 (ix2 r f) = (v : EReal) :=
      fun r f => real_of_abs_lt_top _ (hx' (ix2 r f))
    choose X hX using hr
    exact ⟨X, hX⟩
  · have hr : ∀ (k : Fin 8192) (f : Fin 1024), ∃ v : ℝ, x1 (ix2 k f) = (v : EReal) :=
      fun k f => real_of_abs_lt_top _ (hw' (ix2 k f))
    choose W hW using hr
    exact ⟨W, hW⟩
  · intro i
    obtain ⟨hge, hlt⟩ := IntOp.andi_eq_one.1 (hy' i)
    exact toNat_lt_of_signed _ (IntOp.cmpi_sge.1 hge) (IntOp.cmpi_slt.1 hlt)

end Cert.PreDecode

end
-- ==== Proof.lean ====
/-
  A cross-entropy loss over minus-mean-squared-distance logits, computed two ways, is one extended real.

  The inputs are a batch X of 8192 rows and class weights W of 8192 rows, each of 1024 features, and a label per row.
  The reference forms every logit -(|x_r|^2 - 2 x_r.w_k + |w_k|^2) / 1024, takes a log-softmax along each row, reads
  it at the row's label, and averages; the kernel drops the row-constant term |x_r|^2 / 1024 (cross-entropy does not
  see a shift that is constant along a row), computes each row's log-sum-exp of the shifted logits online over eight
  column tiles with a running maximum and a running sum carried between tiles, and subtracts the true-class shifted
  logit, which it gathers on the host. Both add the same regularisation word times the mean square of X, which the
  reference sums over all entries and the kernel gets from the squared row norms.

  The claim is stated for finite X and W and labels in range (0 ≤ y < 8192): outside that range the reference's own
  gather along the class axis is out of bounds. Under it every quantity is a real number, and the two programs agree
  because a log-sum-exp does not depend on the reference point it is computed against: not on the running maximum the
  kernel happens to hold (whose start value is a finite number, not minus infinity, and need not be), and not on the
  row maximum the reference subtracts.

  The frames: the kernel's program is sixteen host operations, one region on a grid of 4 row tiles by 8 column tiles
  whose body has three control cases (first, middle, last column tile), and sixty-five host operations after it; the
  reference is a straight line of host operations.
-/
import proofs.«429192_j76416058131339_3_alg».proof.Defs
import proofs.«429192_j76416058131339_3_alg».proof.Proof.Gen.Kernel
import proofs.«429192_j76416058131339_3_alg».proof.Proof.Gen.KernelIdeal
import proofs.«429192_j76416058131339_3_alg».proof.Proof.Gen.ReferenceIdeal
import proofs.«429192_j76416058131339_3_alg».proof.Proof.Gen.Pre_finite_inputs
import proofs.«429192_j76416058131339_3_alg».proof.Proof.RefRun
import proofs.«429192_j76416058131339_3_alg».proof.Proof.BitsClose
import proofs.«429192_j76416058131339_3_alg».proof.Proof.IdealClose
import proofs.«429192_j76416058131339_3_alg».proof.Proof.IdealRegion
import proofs.«429192_j76416058131339_3_alg».proof.Proof.IdealTail
import proofs.«429192_j76416058131339_3_alg».proof.Proof.RefValue
import proofs.«429192_j76416058131339_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_kernel : Cert.frame_Kernel := fun m ρ _ => Cert.Kernel.Lse.frame m ρ
/-- So does its idealization: the same program text, read over the extended reals. -/
theorem frame_kernelIdeal : Cert.frame_KernelIdeal := fun m ρ _ => Cert.KernelIdeal.Lse.frame m ρ
/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text. -/
theorem preserves : Cert.preserves_Kernel_KernelIdeal := trivial

/-- Both idealized programs end at the loss of the real matrices and in-range labels the precondition provides. -/
theorem algebraic : Cert.algebraic_KernelIdeal_ReferenceIdeal := by
  intro m ρ m' ρ' hpre hagree
  have hd := fun c => Cert.PreDecode.of_pre _ _ _ (hpre c)
  choose X hX using fun c => (hd c).1
  choose W hW using fun c => (hd c).2.1
  have hy := fun c => (hd c).2.2
  refine ⟨fun c => fun _ => Cert.LseSpec.loss (X c) (W c) (Cert.LseSpec.labels _ (hy c)), ?_, ?_⟩
  · refine (θ_run (Cert.KernelIdeal.defs (F := Ideal)) _ _).mono (fun _ h c => ⟨(h c).1.trans ?_, (h c).2⟩)
      (Cert.KernelIdeal.Lse.run_value m ρ)
    rw [Cert.KernelIdeal.Lse.tail_value m c (X c) (W c) _ (hy c) (hX c) (hW c) (fun _ => rfl)
      (Cert.LseSpec.lse (X c) (W c)) (Cert.KernelIdeal.Lse.region_value m c (X c) (W c) (hX c) (hW c))]
    rfl
  · exact Cert.ReferenceIdeal.RefValue.run_value m' ρ' X W _ hy
      (fun c r f => by rw [(hagree c).1]; exact hX c r f)
      (fun c k f => by rw [(hagree c).2.1]; exact hW c k f)
      (fun c i => by rw [(hagree c).2.2])

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
